-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S_ : Shape := ⟨0, ![]⟩
abbrev S16x3x1x512 : Shape := ⟨4, ![16, 3, 1, 512]⟩
abbrev S16x3x513x512 : Shape := ⟨4, ![16, 3, 513, 512]⟩
abbrev S16x3x514x512 : Shape := ⟨4, ![16, 3, 514, 512]⟩
abbrev S16x3x514x1 : Shape := ⟨4, ![16, 3, 514, 1]⟩
abbrev S16x3x514x513 : Shape := ⟨4, ![16, 3, 514, 513]⟩
abbrev S16x3x514x514 : Shape := ⟨4, ![16, 3, 514, 514]⟩
abbrev S48x514x514 : Shape := ⟨3, ![48, 514, 514]⟩
abbrev S1x1x1 : Shape := ⟨3, ![1, 1, 1]⟩
abbrev S3x514x514 : Shape := ⟨3, ![3, 514, 514]⟩
abbrev S3x512x512 : Shape := ⟨3, ![3, 512, 512]⟩
abbrev S3x512 : Shape := ⟨2, ![3, 512]⟩
abbrev S3x512x1 : Shape := ⟨3, ![3, 512, 1]⟩
abbrev S3x1 : Shape := ⟨2, ![3, 1]⟩
abbrev S3x1x1 : Shape := ⟨3, ![3, 1, 1]⟩
abbrev S1x1 : Shape := ⟨2, ![1, 1]⟩

abbrev nBuf : Space → Nat
  | .hbm => 40
  | .vmem => 6
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S_, .i32⟩
  | .hbm, ⟨3, _⟩ => ⟨S16x3x1x512, .f32⟩
  | .hbm, ⟨4, _⟩ => ⟨S16x3x1x512, .f32⟩
  | .hbm, ⟨5, _⟩ => ⟨S16x3x1x512, .f32⟩
  | .hbm, ⟨6, _⟩ => ⟨S16x3x513x512, .f32⟩
  | .hbm, ⟨7, _⟩ => ⟨S16x3x1x512, .f32⟩
  | .hbm, ⟨8, _⟩ => ⟨S16x3x1x512, .f32⟩
  | .hbm, ⟨9, _⟩ => ⟨S16x3x1x512, .f32⟩
  | .hbm, ⟨10, _⟩ => ⟨S16x3x514x512, .f32⟩
  | .hbm, ⟨11, _⟩ => ⟨S16x3x514x1, .f32⟩
  | .hbm, ⟨12, _⟩ => ⟨S16x3x514x1, .f32⟩
  | .hbm, ⟨13, _⟩ => ⟨S16x3x514x1, .f32⟩
  | .hbm, ⟨14, _⟩ => ⟨S16x3x514x513, .f32⟩
  | .hbm, ⟨15, _⟩ => ⟨S16x3x514x1, .f32⟩
  | .hbm, ⟨16, _⟩ => ⟨S16x3x514x1, .f32⟩
  | .hbm, ⟨17, _⟩ => ⟨S16x3x514x1, .f32⟩
  | .hbm, ⟨18, _⟩ => ⟨S16x3x514x514, .f32⟩
  | .hbm, ⟨19, _⟩ => ⟨S48x514x514, .f32⟩
  | .hbm, ⟨20, _⟩ => ⟨S_, .i32⟩
  | .hbm, ⟨21, _⟩ => ⟨S16x3x1x512, .f32⟩
  | .hbm, ⟨22, _⟩ => ⟨S16x3x1x512, .f32⟩
  | .hbm, ⟨23, _⟩ => ⟨S16x3x1x512, .f32⟩
  | .hbm, ⟨24, _⟩ => ⟨S16x3x513x512, .f32⟩
  | .hbm, ⟨25, _⟩ => ⟨S16x3x1x512, .f32⟩
  | .hbm, ⟨26, _⟩ => ⟨S16x3x1x512, .f32⟩
  | .hbm, ⟨27, _⟩ => ⟨S16x3x1x512, .f32⟩
  | .hbm, ⟨28, _⟩ => ⟨S16x3x514x512, .f32⟩
  | .hbm, ⟨29, _⟩ => ⟨S16x3x514x1, .f32⟩
  | .hbm, ⟨30, _⟩ => ⟨S16x3x514x1, .f32⟩
  | .hbm, ⟨31, _⟩ => ⟨S16x3x514x1, .f32⟩
  | .hbm, ⟨32, _⟩ => ⟨S16x3x514x513, .f32⟩
  | .hbm, ⟨33, _⟩ => ⟨S16x3x514x1, .f32⟩
  | .hbm, ⟨34, _⟩ => ⟨S16x3x514x1, .f32⟩
  | .hbm, ⟨35, _⟩ => ⟨S16x3x514x1, .f32⟩
  | .hbm, ⟨36, _⟩ => ⟨S16x3x514x514, .f32⟩
  | .hbm, ⟨37, _⟩ => ⟨S48x514x514, .f32⟩
  | .hbm, ⟨38, _⟩ => ⟨S1x1x1, .f32⟩
  | .hbm, ⟨39, _⟩ => ⟨S_, .f32⟩
  | .local _ .vmem, ⟨0, _⟩ => ⟨S3x514x514, .f32⟩
  | .local _ .vmem, ⟨1, _⟩ => ⟨S3x514x514, .f32⟩
  | .local _ .vmem, ⟨2, _⟩ => ⟨S3x514x514, .f32⟩
  | .local _ .vmem, ⟨3, _⟩ => ⟨S3x514x514, .f32⟩
  | .local _ .vmem, ⟨4, _⟩ => ⟨S1x1x1, .f32⟩
  | .local _ .vmem, ⟨5, _⟩ => ⟨S1x1x1, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v152 : BitVec 1 := Scalar.cmpi .eq arg0 c15_i32
  let v153 : BitVec 32 := Scalar.extui v152
  let c0_i32_79 : BitVec 32 := 0#32
  let v154 : BitVec 1 := Scalar.cmpi .ne v153 c0_i32_79
  v154

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S3x514x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x514x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S16x3x512x512_S16x3x1x512_0_0_0_0 : S16x3x512x512.Slices ![0, 0, 0, 0] S16x3x1x512
  slices_S16x3x512x512_S16x3x1x512_0_0_1_0 : S16x3x512x512.Slices ![0, 0, 1, 0] S16x3x1x512
  concatenates_S16x3x1x512_S16x3x512x512_S16x3x513x512_d2 : Shape.Concatenates [S16x3x1x512, S16x3x512x512] S16x3x513x512 2
  slices_S16x3x513x512_S16x3x1x512_0_0_512_0 : S16x3x513x512.Slices ![0, 0, 512, 0] S16x3x1x512
  slices_S16x3x513x512_S16x3x1x512_0_0_511_0 : S16x3x513x512.Slices ![0, 0, 511, 0] S16x3x1x512
  concatenates_S16x3x513x512_S16x3x1x512_S16x3x514x512_d2 : Shape.Concatenates [S16x3x513x512, S16x3x1x512] S16x3x514x512 2
  slices_S16x3x514x512_S16x3x514x1_0_0_0_0 : S16x3x514x512.Slices ![0, 0, 0, 0] S16x3x514x1
  slices_S16x3x514x512_S16x3x514x1_0_0_0_1 : S16x3x514x512.Slices ![0, 0, 0, 1] S16x3x514x1
  concatenates_S16x3x514x1_S16x3x514x512_S16x3x514x513_d3 : Shape.Concatenates [S16x3x514x1, S16x3x514x512] S16x3x514x513 3
  slices_S16x3x514x513_S16x3x514x1_0_0_0_512 : S16x3x514x513.Slices ![0, 0, 0, 512] S16x3x514x1
  slices_S16x3x514x513_S16x3x514x1_0_0_0_511 : S16x3x514x513.Slices ![0, 0, 0, 511] S16x3x514x1
  concatenates_S16x3x514x513_S16x3x514x1_S16x3x514x514_d3 : Shape.Concatenates [S16x3x514x513, S16x3x514x1] S16x3x514x514 3
  shapeCasts_S16x3x514x514_S48x514x514 : S16x3x514x514.ShapeCasts S48x514x514
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S3x514x514_S3x512x512_0_1_1 : ∀ a, (![0, 1, 1] : Fin 3 → Nat) a + S3x512x512.size a ≤ S3x514x514.size a
  h_S3x512x512 : 0 < S3x512x512.numel
  shapeCasts_S3x512x512_S3x512x512 : S3x512x512.ShapeCasts S3x512x512
  inb_S3x514x514_S3x512x512_0_0_0 : ∀ a, (![0, 0, 0] : Fin 3 → Nat) a + S3x512x512.size a ≤ S3x514x514.size a
  natLt_1_32 : 1 < 32
  inb_S3x514x514_S3x512x512_0_0_1 : ∀ a, (![0, 0, 1] : Fin 3 → Nat) a + S3x512x512.size a ≤ S3x514x514.size a
  inb_S3x514x514_S3x512x512_0_0_2 : ∀ a, (![0, 0, 2] : Fin 3 → Nat) a + S3x512x512.size a ≤ S3x514x514.size a
  inb_S3x514x514_S3x512x512_0_1_2 : ∀ a, (![0, 1, 2] : Fin 3 → Nat) a + S3x512x512.size a ≤ S3x514x514.size a
  inb_S3x514x514_S3x512x512_0_2_2 : ∀ a, (![0, 2, 2] : Fin 3 → Nat) a + S3x512x512.size a ≤ S3x514x514.size a
  inb_S3x514x514_S3x512x512_0_2_1 : ∀ a, (![0, 2, 1] : Fin 3 → Nat) a + S3x512x512.size a ≤ S3x514x514.size a
  inb_S3x514x514_S3x512x512_0_2_0 : ∀ a, (![0, 2, 0] : Fin 3 → Nat) a + S3x512x512.size a ≤ S3x514x514.size a
  inb_S3x514x514_S3x512x512_0_1_0 : ∀ a, (![0, 1, 0] : Fin 3 → Nat) a + S3x512x512.size a ≤ S3x514x514.size a
  reduces_S3x512x512_S3x512 : S3x512x512.Reduces [2] S3x512
  shapeCasts_S3x512_S3x512x1 : S3x512.ShapeCasts S3x512x1
  reduces_S3x512x1_S3x1 : S3x512x1.Reduces [1] S3x1
  shapeCasts_S3x1_S3x1x1 : S3x1.ShapeCasts S3x1x1
  reduces_S3x1x1_S1x1 : S3x1x1.Reduces [0] S1x1
  shapeCasts_S1x1_S1x1x1 : S1x1.ShapeCasts S1x1x1
  shapeCasts_S1x1x1_S_ : S1x1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x514x514.size a ≤ S48x514x514.size a
  hwx0_0 : ∀ i : grid0.Coords, EltTy.bits .f32 = 32 ∨ (Rect.block (s := S48x514x514) S3x514x514.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x514x514.size a ≤ S48x514x514.size a
  hwx0_1 : ∀ i : grid0.Coords, EltTy.bits .f32 = 32 ∨ (Rect.block (s := S48x514x514) S3x514x514.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S1x1x1.size a
  hwx0_2 : ∀ i : grid0.Coords, EltTy.bits .f32 = 32 ∨ (Rect.block (s := S1x1x1) S1x1x1.size (cc0_transform_2 i) (hinb0_2 i)).WholeWords (EltTy.packing .f32)

variable [Facts₀]

abbrev win0_0 : Pipeline.Window sig grid0 :=
  Pipeline.Window.ofSpec (Memref.whole main_v1) S3x514x514.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3x514x514.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x3x512x512 : Shape := ⟨4, ![16, 3, 512, 512]⟩
abbrev S_ : Shape := ⟨0, ![]⟩
abbrev S16x3x1x512 : Shape := ⟨4, ![16, 3, 1, 512]⟩
abbrev S16x3x513x512 : Shape := ⟨4, ![16, 3, 513, 512]⟩
abbrev S16x3x514x512 : Shape := ⟨4, ![16, 3, 514, 512]⟩
abbrev S16x3x514x1 : Shape := ⟨4, ![16, 3, 514, 1]⟩
abbrev S16x3x514x513 : Shape := ⟨4, ![16, 3, 514, 513]⟩
abbrev S16x3x514x514 : Shape := ⟨4, ![16, 3, 514, 514]⟩

abbrev nBuf : Space → Nat
  | .hbm => 163
  | .vmem => 0
  | .smem => 0
  | _ => 0

abbrev hbmTy0_0 (i : Nat) : BufTy := match i % 128 with
  | 0 => ⟨S16x3x512x512, .f32⟩
  | 1 => ⟨S16x3x512x512, .f32⟩
  | 2 => ⟨S_, .i32⟩
  | 3 => ⟨S16x3x1x512, .f32⟩
  | 4 => ⟨S16x3x1x512, .f32⟩
  | 5 => ⟨S16x3x1x512, .f32⟩
  | 6 => ⟨S16x3x513x512, .f32⟩
  | 7 => ⟨S16x3x1x512, .f32⟩
  | 8 => ⟨S16x3x1x512, .f32⟩
  | 9 => ⟨S16x3x1x512, .f32⟩
  | 10 => ⟨S16x3x514x512, .f32⟩
  | 11 => ⟨S16x3x514x1, .f32⟩
  | 12 => ⟨S16x3x514x1, .f32⟩
  | 13 => ⟨S16x3x514x1, .f32⟩
  | 14 => ⟨S16x3x514x513, .f32⟩
  | 15 => ⟨S16x3x514x1, .f32⟩
  | 16 => ⟨S16x3x514x1, .f32⟩
  | 17 => ⟨S16x3x514x1, .f32⟩
  | 18 => ⟨S16x3x514x514, .f32⟩
  | 19 => ⟨S_, .f32⟩
  | 20 => ⟨S16x3x512x512, .f32⟩
  | 21 => ⟨S16x3x512x512, .f32⟩
  | 22 => ⟨S16x3x512x512, .i1⟩
  | 23 => ⟨S16x3x512x512, .f32⟩
  | 24 => ⟨S_, .f32⟩
  | 25 => ⟨S16x3x512x512, .f32⟩
  | 26 => ⟨S16x3x512x512, .f32⟩
  | 27 => ⟨S16x3x512x512, .f32⟩
  | 28 => ⟨S16x3x512x512, .f32⟩
  | 29 => ⟨S16x3x512x512, .i1⟩
  | 30 => ⟨S16x3x512x512, .f32⟩
  | 31 => ⟨S_, .f32⟩
  | 32 => ⟨S16x3x512x512, .f32⟩
  | 33 => ⟨S16x3x512x512, .f32⟩
  | 34 => ⟨S16x3x512x512, .f32⟩
  | 35 => ⟨S16x3x512x512, .f32⟩
  | 36 => ⟨S16x3x512x512, .i1⟩
  | 37 => ⟨S16x3x512x512, .f32⟩
  | 38 => ⟨S_, .f32⟩
  | 39 => ⟨S16x3x512x512, .f32⟩
  | 40 => ⟨S16x3x512x512, .f32⟩
  | 41 => ⟨S16x3x512x512, .f32⟩
  | 42 => ⟨S16x3x512x512, .f32⟩
  | 43 => ⟨S16x3x512x512, .i1⟩
  | 44 => ⟨S16x3x512x512, .f32⟩
  | 45 => ⟨S_, .f32⟩
  | 46 => ⟨S16x3x512x512, .f32⟩
  | 47 => ⟨S16x3x512x512, .f32⟩
  | 48 => ⟨S16x3x512x512, .f32⟩
  | 49 => ⟨S16x3x512x512, .f32⟩
  | 50 => ⟨S16x3x512x512, .i1⟩
  | 51 => ⟨S16x3x512x512, .f32⟩
  | 52 => ⟨S_, .f32⟩
  | 53 => ⟨S16x3x512x512, .f32⟩
  | 54 => ⟨S16x3x512x512, .f32⟩
  | 55 => ⟨S16x3x512x512, .f32⟩
  | 56 => ⟨S16x3x512x512, .f32⟩
  | 57 => ⟨S16x3x512x512, .i1⟩
  | 58 => ⟨S16x3x512x512, .f32⟩
  | 59 => ⟨S_, .f32⟩
  | 60 => ⟨S16x3x512x512, .f32⟩
  | 61 => ⟨S16x3x512x512, .f32⟩
  | 62 => ⟨S16x3x512x512, .f32⟩
  | 63 => ⟨S16x3x512x512, .f32⟩
  | 64 => ⟨S16x3x512x512, .i1⟩
  | 65 => ⟨S16x3x512x512, .f32⟩
  | 66 => ⟨S_, .f32⟩
  | 67 => ⟨S16x3x512x512, .f32⟩
  | 68 => ⟨S16x3x512x512, .f32⟩
  | 69 => ⟨S16x3x512x512, .f32⟩
  | 70 => ⟨S16x3x512x512, .f32⟩
  | 71 => ⟨S16x3x512x512, .i1⟩
  | 72 => ⟨S16x3x512x512, .f32⟩
  | 73 => ⟨S_, .f32⟩
  | 74 => ⟨S16x3x512x512, .f32⟩
  | 75 => ⟨S16x3x512x512, .f32⟩
  | 76 => ⟨S16x3x512x512, .f32⟩
  | 77 => ⟨S_, .f32⟩
  | 78 => ⟨S16x3x512x512, .f32⟩
  | 79 => ⟨S16x3x512x512, .f32⟩
  | 80 => ⟨S_, .i32⟩
  | 81 => ⟨S16x3x1x512, .f32⟩
  | 82 => ⟨S16x3x1x512, .f32⟩
  | 83 => ⟨S16x3x1x512, .f32⟩
  | 84 => ⟨S16x3x513x512, .f32⟩
  | 85 => ⟨S16x3x1x512, .f32⟩
  | 86 => ⟨S16x3x1x512, .f32⟩
  | 87 => ⟨S16x3x1x512, .f32⟩
  | 88 => ⟨S16x3x514x512, .f32⟩
  | 89 => ⟨S16x3x514x1, .f32⟩
  | 90 => ⟨S16x3x514x1, .f32⟩
  | 91 => ⟨S16x3x514x1, .f32⟩
  | 92 => ⟨S16x3x514x513, .f32⟩
  | 93 => ⟨S16x3x514x1, .f32⟩
  | 94 => ⟨S16x3x514x1, .f32⟩
  | 95 => ⟨S16x3x514x1, .f32⟩
  | 96 => ⟨S16x3x514x514, .f32⟩
  | 97 => ⟨S_, .f32⟩
  | 98 => ⟨S16x3x512x512, .f32⟩
  | 99 => ⟨S16x3x512x512, .f32⟩
  | 100 => ⟨S16x3x512x512, .i1⟩
  | 101 => ⟨S16x3x512x512, .f32⟩
  | 102 => ⟨S_, .f32⟩
  | 103 => ⟨S16x3x512x512, .f32⟩
  | 104 => ⟨S16x3x512x512, .f32⟩
  | 105 => ⟨S16x3x512x512, .f32⟩
  | 106 => ⟨S16x3x512x512, .f32⟩
  | 107 => ⟨S16x3x512x512, .i1⟩
  | 108 => ⟨S16x3x512x512, .f32⟩
  | 109 => ⟨S_, .f32⟩
  | 110 => ⟨S16x3x512x512, .f32⟩
  | 111 => ⟨S16x3x512x512, .f32⟩
  | 112 => ⟨S16x3x512x512, .f32⟩
  | 113 => ⟨S16x3x512x512, .f32⟩
  | 114 => ⟨S16x3x512x512, .i1⟩
  | 115 => ⟨S16x3x512x512, .f32⟩
  | 116 => ⟨S_, .f32⟩
  | 117 => ⟨S16x3x512x512, .f32⟩
  | 118 => ⟨S16x3x512x512, .f32⟩
  | 119 => ⟨S16x3x512x512, .f32⟩
  | 120 => ⟨S16x3x512x512, .f32⟩
  | 121 => ⟨S16x3x512x512, .i1⟩
  | 122 => ⟨S16x3x512x512, .f32⟩
  | 123 => ⟨S_, .f32⟩
  | 124 => ⟨S16x3x512x512, .f32⟩
  | 125 => ⟨S16x3x512x512, .f32⟩
  | 126 => ⟨S16x3x512x512, .f32⟩
  | 127 => ⟨S16x3x512x512, .f32⟩
  | _ => ⟨S16x3x512x512, .f32⟩

abbrev hbmTy0_1 (i : Nat) : BufTy := match i % 128 with
  | 0 => ⟨S16x3x512x512, .i1⟩
  | 1 => ⟨S16x3x512x512, .f32⟩
  | 2 => ⟨S_, .f32⟩
  | 3 => ⟨S16x3x512x512, .f32⟩
  | 4 => ⟨S16x3x512x512, .f32⟩
  | 5 => ⟨S16x3x512x512, .f32⟩
  | 6 => ⟨S16x3x512x512, .f32⟩
  | 7 => ⟨S16x3x512x512, .i1⟩
  | 8 => ⟨S16x3x512x512, .f32⟩
  | 9 => ⟨S_, .f32⟩
  | 10 => ⟨S16x3x512x512, .f32⟩
  | 11 => ⟨S16x3x512x512, .f32⟩
  | 12 => ⟨S16x3x512x512, .f32⟩
  | 13 => ⟨S16x3x512x512, .f32⟩
  | 14 => ⟨S16x3x512x512, .i1⟩
  | 15 => ⟨S16x3x512x512, .f32⟩
  | 16 => ⟨S_, .f32⟩
  | 17 => ⟨S16x3x512x512, .f32⟩
  | 18 => ⟨S16x3x512x512, .f32⟩
  | 19 => ⟨S16x3x512x512, .f32⟩
  | 20 => ⟨S16x3x512x512, .f32⟩
  | 21 => ⟨S16x3x512x512, .i1⟩
  | 22 => ⟨S16x3x512x512, .f32⟩
  | 23 => ⟨S_, .f32⟩
  | 24 => ⟨S16x3x512x512, .f32⟩
  | 25 => ⟨S16x3x512x512, .f32⟩
  | 26 => ⟨S16x3x512x512, .f32⟩
  | 27 => ⟨S_, .f32⟩
  | 28 => ⟨S16x3x512x512, .f32⟩
  | 29 => ⟨S16x3x512x512, .f32⟩
  | 30 => ⟨S16x3x512x512, .f32⟩
  | 31 => ⟨S16x3x512x512, .f32⟩
  | 32 => ⟨S_, .f32⟩
  | 33 => ⟨S_, .f32⟩
  | 34 => ⟨S_, .f32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_v52 : Ref sig .tc := ⟨.hbm, 96, rfl⟩
abbrev main_cst_10 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_11 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_12 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_13 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_15 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_16 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_17 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_18 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_19 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_20 : Ref sig .tc := ⟨.hbm, 160, rfl⟩
abbrev main_v106 : Ref sig .tc := ⟨.hbm, 161, rfl⟩
abbrev main_v107 : Ref sig .tc := ⟨.hbm, 162, rfl⟩

abbrev nD : Nat := 1
abbrev τ : Topo := Topo.v7x

variable {F : FTy → Type} [FloatOps F]

class Facts₀ : Prop where
  slices_S16x3x512x512_S16x3x1x512_0_0_0_0 : S16x3x512x512.Slices ![0, 0, 0, 0] S16x3x1x512
  slices_S16x3x512x512_S16x3x1x512_0_0_1_0 : S16x3x512x512.Slices ![0, 0, 1, 0] S16x3x1x512
  concatenates_S16x3x1x512_S16x3x512x512_S16x3x513x512_d2 : Shape.Concatenates [S16x3x1x512, S16x3x512x512] S16x3x513x512 2
  slices_S16x3x513x512_S16x3x1x512_0_0_512_0 : S16x3x513x512.Slices ![0, 0, 512, 0] S16x3x1x512
  slices_S16x3x513x512_S16x3x1x512_0_0_511_0 : S16x3x513x512.Slices ![0, 0, 511, 0] S16x3x1x512
  concatenates_S16x3x513x512_S16x3x1x512_S16x3x514x512_d2 : Shape.Concatenates [S16x3x513x512, S16x3x1x512] S16x3x514x512 2
  slices_S16x3x514x512_S16x3x514x1_0_0_0_0 : S16x3x514x512.Slices ![0, 0, 0, 0] S16x3x514x1
  slices_S16x3x514x512_S16x3x514x1_0_0_0_1 : S16x3x514x512.Slices ![0, 0, 0, 1] S16x3x514x1
  concatenates_S16x3x514x1_S16x3x514x512_S16x3x514x513_d3 : Shape.Concatenates [S16x3x514x1, S16x3x514x512] S16x3x514x513 3
  slices_S16x3x514x513_S16x3x514x1_0_0_0_512 : S16x3x514x513.Slices ![0, 0, 0, 512] S16x3x514x1
  slices_S16x3x514x513_S16x3x514x1_0_0_0_511 : S16x3x514x513.Slices ![0, 0, 0, 511] S16x3x514x1
  concatenates_S16x3x514x513_S16x3x514x1_S16x3x514x514_d3 : Shape.Concatenates [S16x3x514x513, S16x3x514x1] S16x3x514x514 3
  bcast_S_S16x3x512x512 : S_.BroadcastsInDim S16x3x512x512 (![] : Fin 0 → Fin S16x3x512x512.rank)
  slices_S16x3x514x514_S16x3x512x512_0_0_0_0 : S16x3x514x514.Slices ![0, 0, 0, 0] S16x3x512x512
  slices_S16x3x514x514_S16x3x512x512_0_0_0_1 : S16x3x514x514.Slices ![0, 0, 0, 1] S16x3x512x512
  slices_S16x3x514x514_S16x3x512x512_0_0_0_2 : S16x3x514x514.Slices ![0, 0, 0, 2] S16x3x512x512
  slices_S16x3x514x514_S16x3x512x512_0_0_1_2 : S16x3x514x514.Slices ![0, 0, 1, 2] S16x3x512x512
  slices_S16x3x514x514_S16x3x512x512_0_0_2_2 : S16x3x514x514.Slices ![0, 0, 2, 2] S16x3x512x512
  slices_S16x3x514x514_S16x3x512x512_0_0_2_1 : S16x3x514x514.Slices ![0, 0, 2, 1] S16x3x512x512
  slices_S16x3x514x514_S16x3x512x512_0_0_2_0 : S16x3x514x514.Slices ![0, 0, 2, 0] S16x3x512x512
  slices_S16x3x514x514_S16x3x512x512_0_0_1_0 : S16x3x514x514.Slices ![0, 0, 1, 0] S16x3x512x512
  reducesTo_S16x3x512x512_S_d0_1_2_3 : S16x3x512x512.ReducesTo [0, 1, 2, 3] S_
  h_S_ : 0 < S_.numel

variable [Facts₀]

class Facts : Prop extends Facts₀ where

variable [Facts]
-- ==== Proof.RefOps.lean ====
/- (a table: the reference program's host operations in order, copied from its printed text, a call of @_pad
   replaced by the callee's operations over the call's buffers; nothing is proved here). -/
import proofs.«130637_j39152921870850_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.SL.Sem

variable {F : FTy → Type} [FloatOps F]

/-- The operations of the printed part 0 of @main (75 of them). -/
abbrev opsP0 : List (HloOp τ sig (Elt F)) :=
  [ StableHlo.nullary main_c (constantI S_ 32 0#32),
    StableHlo.TRef.unary (.of main_arg0 : StableHlo.TRef sig ⟨S16x3x512x512, .f32⟩) main_call0.v0 (extractStridedSlice S16x3x1x512 ![0, 0, 0, 0] · slices_S16x3x512x512_S16x3x1x512_0_0_0_0),
    StableHlo.TRef.unary (.of main_arg0 : StableHlo.TRef sig ⟨S16x3x512x512, .f32⟩) main_call0.v1 (extractStridedSlice S16x3x1x512 ![0, 0, 1, 0] · slices_S16x3x512x512_S16x3x1x512_0_0_1_0),
    StableHlo.TRef.unary main_call0.v1 main_call0.call0.v0 (Host.reverse [2]),
    StableHlo.TRef.binary main_call0.call0.v0 (.of main_arg0 : StableHlo.TRef sig ⟨S16x3x512x512, .f32⟩) main_call0.v3 (fun a b => concatenate S16x3x513x512 2 [⟨S16x3x1x512, a⟩, ⟨S16x3x512x512, b⟩] concatenates_S16x3x1x512_S16x3x512x512_S16x3x513x512_d2),
    StableHlo.TRef.unary main_call0.v3 main_call0.v4 (extractStridedSlice S16x3x1x512 ![0, 0, 512, 0] · slices_S16x3x513x512_S16x3x1x512_0_0_512_0),
    StableHlo.TRef.unary main_call0.v3 main_call0.v5 (extractStridedSlice S16x3x1x512 ![0, 0, 511, 0] · slices_S16x3x513x512_S16x3x1x512_0_0_511_0),
    StableHlo.TRef.unary main_call0.v5 main_call0.call1.v0 (Host.reverse [2]),
    StableHlo.TRef.binary main_call0.v3 main_call0.call1.v0 main_call0.v7 (fun a b => concatenate S16x3x514x512 2 [⟨S16x3x513x512, a⟩, ⟨S16x3x1x512, b⟩] concatenates_S16x3x513x512_S16x3x1x512_S16x3x514x512_d2),
    StableHlo.TRef.unary main_call0.v7 main_call0.v8 (extractStridedSlice S16x3x514x1 ![0, 0, 0, 0] · slices_S16x3x514x512_S16x3x514x1_0_0_0_0),
    StableHlo.TRef.unary main_call0.v7 main_call0.v9 (extractStridedSlice S16x3x514x1 ![0, 0, 0, 1] · slices_S16x3x514x512_S16x3x514x1_0_0_0_1),
    StableHlo.TRef.unary main_call0.v9 main_call0.call2.v0 (Host.reverse [3]),
    StableHlo.TRef.binary main_call0.call2.v0 main_call0.v7 main_call0.v11 (fun a b => concatenate S16x3x514x513 3 [⟨S16x3x514x1, a⟩, ⟨S16x3x514x512, b⟩] concatenates_S16x3x514x1_S16x3x514x512_S16x3x514x513_d3),
    StableHlo.TRef.unary main_call0.v11 main_call0.v12 (extractStridedSlice S16x3x514x1 ![0, 0, 0, 512] · slices_S16x3x514x513_S16x3x514x1_0_0_0_512),
    StableHlo.TRef.unary main_call0.v11 main_call0.v13 (extractStridedSlice S16x3x514x1 ![0, 0, 0, 511] · slices_S16x3x514x513_S16x3x514x1_0_0_0_511),
    StableHlo.TRef.unary main_call0.v13 main_call0.call3.v0 (Host.reverse [3]),
    StableHlo.TRef.binary main_call0.v11 main_call0.call3.v0 main_call0.v15 (fun a b => concatenate S16x3x514x514 3 [⟨S16x3x514x513, a⟩, ⟨S16x3x514x1, b⟩] concatenates_S16x3x514x513_S16x3x514x1_S16x3x514x514_d3),
    StableHlo.nullary main_cst (constant S_ .f32 0x00000000#32),
    StableHlo.unary main_cst main_v1 (broadcastInDim S16x3x512x512 ![] bcast_S_S16x3x512x512 : (⟨S_, .f32⟩ : BufTy).Contents (Elt F) → (⟨S16x3x512x512, .f32⟩ : BufTy).Contents (Elt F)),
    StableHlo.unary main_v0 main_v2 ((extractStridedSlice S16x3x512x512 ![0, 0, 0, 0] · slices_S16x3x514x514_S16x3x512x512_0_0_0_0) : (⟨S16x3x514x514, .f32⟩ : BufTy).Contents (Elt F) → (⟨S16x3x512x512, .f32⟩ : BufTy).Contents (Elt F)),
    StableHlo.binary main_v2 main_arg0 main_v3 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v3 main_v4 (uitofp .f32 : (⟨S16x3x512x512, .i1⟩ : BufTy).Contents (Elt F) → (⟨S16x3x512x512, .f32⟩ : BufTy).Contents (Elt F)),
    StableHlo.nullary main_cst_0 (constant S_ .f32 0x3F800000#32),
    StableHlo.unary main_cst_0 main_v5 (broadcastInDim S16x3x512x512 ![] bcast_S_S16x3x512x512 : (⟨S_, .f32⟩ : BufTy).Contents (Elt F) → (⟨S16x3x512x512, .f32⟩ : BufTy).Contents (Elt F)),
    StableHlo.binary main_v5 main_v4 main_v6 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v1 main_v6 main_v7 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v0 main_v8 ((extractStridedSlice S16x3x512x512 ![0, 0, 0, 1] · slices_S16x3x514x514_S16x3x512x512_0_0_0_1) : (⟨S16x3x514x514, .f32⟩ : BufTy).Contents (Elt F) → (⟨S16x3x512x512, .f32⟩ : BufTy).Contents (Elt F)),
    StableHlo.binary main_v8 main_arg0 main_v9 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v9 main_v10 (uitofp .f32 : (⟨S16x3x512x512, .i1⟩ : BufTy).Contents (Elt F) → (⟨S16x3x512x512, .f32⟩ : BufTy).Contents (Elt F)),
    StableHlo.nullary main_cst_1 (constant S_ .f32 0x40000000#32),
    StableHlo.unary main_cst_1 main_v11 (broadcastInDim S16x3x512x512 ![] bcast_S_S16x3x512x512 : (⟨S_, .f32⟩ : BufTy).Contents (Elt F) → (⟨S16x3x512x512, .f32⟩ : BufTy).Contents (Elt F)),
    StableHlo.binary main_v11 main_v10 main_v12 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v7 main_v12 main_v13 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v0 main_v14 ((extractStridedSlice S16x3x512x512 ![0, 0, 0, 2] · slices_S16x3x514x514_S16x3x512x512_0_0_0_2) : (⟨S16x3x514x514, .f32⟩ : BufTy).Contents (Elt F) → (⟨S16x3x512x512, .f32⟩ : BufTy).Contents (Elt F)),
    StableHlo.binary main_v14 main_arg0 main_v15 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v15 main_v16 (uitofp .f32 : (⟨S16x3x512x512, .i1⟩ : BufTy).Contents (Elt F) → (⟨S16x3x512x512, .f32⟩ : BufTy).Contents (Elt F)),
    StableHlo.nullary main_cst_2 (constant S_ .f32 0x40800000#32),
    StableHlo.unary main_cst_2 main_v17 (broadcastInDim S16x3x512x512 ![] bcast_S_S16x3x512x512 : (⟨S_, .f32⟩ : BufTy).Contents (Elt F) → (⟨S16x3x512x512, .f32⟩ : BufTy).Contents (Elt F)),
    StableHlo.binary main_v17 main_v16 main_v18 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v13 main_v18 main_v19 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v0 main_v20 ((extractStridedSlice S16x3x512x512 ![0, 0, 1, 2] · slices_S16x3x514x514_S16x3x512x512_0_0_1_2) : (⟨S16x3x514x514, .f32⟩ : BufTy).Contents (Elt F) → (⟨S16x3x512x512, .f32⟩ : BufTy).Contents (Elt F)),
    StableHlo.binary main_v20 main_arg0 main_v21 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v21 main_v22 (uitofp .f32 : (⟨S16x3x512x512, .i1⟩ : BufTy).Contents (Elt F) → (⟨S16x3x512x512, .f32⟩ : BufTy).Contents (Elt F)),
    StableHlo.nullary main_cst_3 (constant S_ .f32 0x41000000#32),
    StableHlo.unary main_cst_3 main_v23 (broadcastInDim S16x3x512x512 ![] bcast_S_S16x3x512x512 : (⟨S_, .f32⟩ : BufTy).Contents (Elt F) → (⟨S16x3x512x512, .f32⟩ : BufTy).Contents (Elt F)),
    StableHlo.binary main_v23 main_v22 main_v24 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v19 main_v24 main_v25 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v0 main_v26 ((extractStridedSlice S16x3x512x512 ![0, 0, 2, 2] · slices_S16x3x514x514_S16x3x512x512_0_0_2_2) : (⟨S16x3x514x514, .f32⟩ : BufTy).Contents (Elt F) → (⟨S16x3x512x512, .f32⟩ : BufTy).Contents (Elt F)),
    StableHlo.binary main_v26 main_arg0 main_v27 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v27 main_v28 (uitofp .f32 : (⟨S16x3x512x512, .i1⟩ : BufTy).Contents (Elt F) → (⟨S16x3x512x512, .f32⟩ : BufTy).Contents (Elt F)),
    StableHlo.nullary main_cst_4 (constant S_ .f32 0x41800000#32),
    StableHlo.unary main_cst_4 main_v29 (broadcastInDim S16x3x512x512 ![] bcast_S_S16x3x512x512 : (⟨S_, .f32⟩ : BufTy).Contents (Elt F) → (⟨S16x3x512x512, .f32⟩ : BufTy).Contents (Elt F)),
    StableHlo.binary main_v29 main_v28 main_v30 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v25 main_v30 main_v31 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v0 main_v32 ((extractStridedSlice S16x3x512x512 ![0, 0, 2, 1] · slices_S16x3x514x514_S16x3x512x512_0_0_2_1) : (⟨S16x3x514x514, .f32⟩ : BufTy).Contents (Elt F) → (⟨S16x3x512x512, .f32⟩ : BufTy).Contents (Elt F)),
    StableHlo.binary main_v32 main_arg0 main_v33 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v33 main_v34 (uitofp .f32 : (⟨S16x3x512x512, .i1⟩ : BufTy).Contents (Elt F) → (⟨S16x3x512x512, .f32⟩ : BufTy).Contents (Elt F)),
    StableHlo.nullary main_cst_5 (constant S_ .f32 0x42000000#32),
    StableHlo.unary main_cst_5 main_v35 (broadcastInDim S16x3x512x512 ![] bcast_S_S16x3x512x512 : (⟨S_, .f32⟩ : BufTy).Contents (Elt F) → (⟨S16x3x512x512, .f32⟩ : BufTy).Contents (Elt F)),
    StableHlo.binary main_v35 main_v34 main_v36 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v31 main_v36 main_v37 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v0 main_v38 ((extractStridedSlice S16x3x512x512 ![0, 0, 2, 0] · slices_S16x3x514x514_S16x3x512x512_0_0_2_0) : (⟨S16x3x514x514, .f32⟩ : BufTy).Contents (Elt F) → (⟨S16x3x512x512, .f32⟩ : BufTy).Contents (Elt F)),
    StableHlo.binary main_v38 main_arg0 main_v39 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v39 main_v40 (uitofp .f32 : (⟨S16x3x512x512, .i1⟩ : BufTy).Contents (Elt F) → (⟨S16x3x512x512, .f32⟩ : BufTy).Contents (Elt F)),
    StableHlo.nullary main_cst_6 (constant S_ .f32 0x42800000#32),
    StableHlo.unary main_cst_6 main_v41 (broadcastInDim S16x3x512x512 ![] bcast_S_S16x3x512x512 : (⟨S_, .f32⟩ : BufTy).Contents (Elt F) → (⟨S16x3x512x512, .f32⟩ : BufTy).Contents (Elt F)),
    StableHlo.binary main_v41 main_v40 main_v42 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v37 main_v42 main_v43 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v0 main_v44 ((extractStridedSlice S16x3x512x512 ![0, 0, 1, 0] · slices_S16x3x514x514_S16x3x512x512_0_0_1_0) : (⟨S16x3x514x514, .f32⟩ : BufTy).Contents (Elt F) → (⟨S16x3x512x512, .f32⟩ : BufTy).Contents (Elt F)),
    StableHlo.binary main_v44 main_arg0 main_v45 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v45 main_v46 (uitofp .f32 : (⟨S16x3x512x512, .i1⟩ : BufTy).Contents (Elt F) → (⟨S16x3x512x512, .f32⟩ : BufTy).Contents (Elt F)),
    StableHlo.nullary main_cst_7 (constant S_ .f32 0x43000000#32),
    StableHlo.unary main_cst_7 main_v47 (broadcastInDim S16x3x512x512 ![] bcast_S_S16x3x512x512 : (⟨S_, .f32⟩ : BufTy).Contents (Elt F) → (⟨S16x3x512x512, .f32⟩ : BufTy).Contents (Elt F)),
    StableHlo.binary main_v47 main_v46 main_v48 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v43 main_v48 main_v49 (addf : (⟨S16x3x512x512, .f32⟩ : BufTy).Contents (Elt F) → (⟨S16x3x512x512, .f32⟩ : BufTy).Contents (Elt F) → (⟨S16x3x512x512, .f32⟩ : BufTy).Contents (Elt F)) ]

/-- The operations of the printed part 1 of @main (75 of them). -/
abbrev opsP1 : List (HloOp τ sig (Elt F)) :=
  [ StableHlo.nullary main_cst_8 (constant S_ .f32 0x3B808081#32),
    StableHlo.unary main_cst_8 main_v50 (broadcastInDim S16x3x512x512 ![] bcast_S_S16x3x512x512 : (⟨S_, .f32⟩ : BufTy).Contents (Elt F) → (⟨S16x3x512x512, .f32⟩ : BufTy).Contents (Elt F)),
    StableHlo.binary main_v49 main_v50 main_v51 (mulf : (⟨S16x3x512x512, .f32⟩ : BufTy).Contents (Elt F) → (⟨S16x3x512x512, .f32⟩ : BufTy).Contents (Elt F) → (⟨S16x3x512x512, .f32⟩ : BufTy).Contents (Elt F)),
    StableHlo.nullary main_c_9 (constantI S_ 32 0#32),
    StableHlo.TRef.unary (.of main_arg1 : StableHlo.TRef sig ⟨S16x3x512x512, .f32⟩) main_call1.v0 (extractStridedSlice S16x3x1x512 ![0, 0, 0, 0] · slices_S16x3x512x512_S16x3x1x512_0_0_0_0),
    StableHlo.TRef.unary (.of main_arg1 : StableHlo.TRef sig ⟨S16x3x512x512, .f32⟩) main_call1.v1 (extractStridedSlice S16x3x1x512 ![0, 0, 1, 0] · slices_S16x3x512x512_S16x3x1x512_0_0_1_0),
    StableHlo.TRef.unary main_call1.v1 main_call1.call0.v0 (Host.reverse [2]),
    StableHlo.TRef.binary main_call1.call0.v0 (.of main_arg1 : StableHlo.TRef sig ⟨S16x3x512x512, .f32⟩) main_call1.v3 (fun a b => concatenate S16x3x513x512 2 [⟨S16x3x1x512, a⟩, ⟨S16x3x512x512, b⟩] concatenates_S16x3x1x512_S16x3x512x512_S16x3x513x512_d2),
    StableHlo.TRef.unary main_call1.v3 main_call1.v4 (extractStridedSlice S16x3x1x512 ![0, 0, 512, 0] · slices_S16x3x513x512_S16x3x1x512_0_0_512_0),
    StableHlo.TRef.unary main_call1.v3 main_call1.v5 (extractStridedSlice S16x3x1x512 ![0, 0, 511, 0] · slices_S16x3x513x512_S16x3x1x512_0_0_511_0),
    StableHlo.TRef.unary main_call1.v5 main_call1.call1.v0 (Host.reverse [2]),
    StableHlo.TRef.binary main_call1.v3 main_call1.call1.v0 main_call1.v7 (fun a b => concatenate S16x3x514x512 2 [⟨S16x3x513x512, a⟩, ⟨S16x3x1x512, b⟩] concatenates_S16x3x513x512_S16x3x1x512_S16x3x514x512_d2),
    StableHlo.TRef.unary main_call1.v7 main_call1.v8 (extractStridedSlice S16x3x514x1 ![0, 0, 0, 0] · slices_S16x3x514x512_S16x3x514x1_0_0_0_0),
    StableHlo.TRef.unary main_call1.v7 main_call1.v9 (extractStridedSlice S16x3x514x1 ![0, 0, 0, 1] · slices_S16x3x514x512_S16x3x514x1_0_0_0_1),
    StableHlo.TRef.unary main_call1.v9 main_call1.call2.v0 (Host.reverse [3]),
    StableHlo.TRef.binary main_call1.call2.v0 main_call1.v7 main_call1.v11 (fun a b => concatenate S16x3x514x513 3 [⟨S16x3x514x1, a⟩, ⟨S16x3x514x512, b⟩] concatenates_S16x3x514x1_S16x3x514x512_S16x3x514x513_d3),
    StableHlo.TRef.unary main_call1.v11 main_call1.v12 (extractStridedSlice S16x3x514x1 ![0, 0, 0, 512] · slices_S16x3x514x513_S16x3x514x1_0_0_0_512),
    StableHlo.TRef.unary main_call1.v11 main_call1.v13 (extractStridedSlice S16x3x514x1 ![0, 0, 0, 511] · slices_S16x3x514x513_S16x3x514x1_0_0_0_511),
    StableHlo.TRef.unary main_call1.v13 main_call1.call3.v0 (Host.reverse [3]),
    StableHlo.TRef.binary main_call1.v11 main_call1.call3.v0 main_call1.v15 (fun a b => concatenate S16x3x514x514 3 [⟨S16x3x514x513, a⟩, ⟨S16x3x514x1, b⟩] concatenates_S16x3x514x513_S16x3x514x1_S16x3x514x514_d3),
    StableHlo.nullary main_cst_10 (constant S_ .f32 0x00000000#32),
    StableHlo.unary main_cst_10 main_v53 (broadcastInDim S16x3x512x512 ![] bcast_S_S16x3x512x512 : (⟨S_, .f32⟩ : BufTy).Contents (Elt F) → (⟨S16x3x512x512, .f32⟩ : BufTy).Contents (Elt F)),
    StableHlo.unary main_v52 main_v54 ((extractStridedSlice S16x3x512x512 ![0, 0, 0, 0] · slices_S16x3x514x514_S16x3x512x512_0_0_0_0) : (⟨S16x3x514x514, .f32⟩ : BufTy).Contents (Elt F) → (⟨S16x3x512x512, .f32⟩ : BufTy).Contents (Elt F)),
    StableHlo.binary main_v54 main_arg1 main_v55 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v55 main_v56 (uitofp .f32 : (⟨S16x3x512x512, .i1⟩ : BufTy).Contents (Elt F) → (⟨S16x3x512x512, .f32⟩ : BufTy).Contents (Elt F)),
    StableHlo.nullary main_cst_11 (constant S_ .f32 0x3F800000#32),
    StableHlo.unary main_cst_11 main_v57 (broadcastInDim S16x3x512x512 ![] bcast_S_S16x3x512x512 : (⟨S_, .f32⟩ : BufTy).Contents (Elt F) → (⟨S16x3x512x512, .f32⟩ : BufTy).Contents (Elt F)),
    StableHlo.binary main_v57 main_v56 main_v58 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v53 main_v58 main_v59 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v52 main_v60 ((extractStridedSlice S16x3x512x512 ![0, 0, 0, 1] · slices_S16x3x514x514_S16x3x512x512_0_0_0_1) : (⟨S16x3x514x514, .f32⟩ : BufTy).Contents (Elt F) → (⟨S16x3x512x512, .f32⟩ : BufTy).Contents (Elt F)),
    StableHlo.binary main_v60 main_arg1 main_v61 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v61 main_v62 (uitofp .f32 : (⟨S16x3x512x512, .i1⟩ : BufTy).Contents (Elt F) → (⟨S16x3x512x512, .f32⟩ : BufTy).Contents (Elt F)),
    StableHlo.nullary main_cst_12 (constant S_ .f32 0x40000000#32),
    StableHlo.unary main_cst_12 main_v63 (broadcastInDim S16x3x512x512 ![] bcast_S_S16x3x512x512 : (⟨S_, .f32⟩ : BufTy).Contents (Elt F) → (⟨S16x3x512x512, .f32⟩ : BufTy).Contents (Elt F)),
    StableHlo.binary main_v63 main_v62 main_v64 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v59 main_v64 main_v65 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v52 main_v66 ((extractStridedSlice S16x3x512x512 ![0, 0, 0, 2] · slices_S16x3x514x514_S16x3x512x512_0_0_0_2) : (⟨S16x3x514x514, .f32⟩ : BufTy).Contents (Elt F) → (⟨S16x3x512x512, .f32⟩ : BufTy).Contents (Elt F)),
    StableHlo.binary main_v66 main_arg1 main_v67 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v67 main_v68 (uitofp .f32 : (⟨S16x3x512x512, .i1⟩ : BufTy).Contents (Elt F) → (⟨S16x3x512x512, .f32⟩ : BufTy).Contents (Elt F)),
    StableHlo.nullary main_cst_13 (constant S_ .f32 0x40800000#32),
    StableHlo.unary main_cst_13 main_v69 (broadcastInDim S16x3x512x512 ![] bcast_S_S16x3x512x512 : (⟨S_, .f32⟩ : BufTy).Contents (Elt F) → (⟨S16x3x512x512, .f32⟩ : BufTy).Contents (Elt F)),
    StableHlo.binary main_v69 main_v68 main_v70 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v65 main_v70 main_v71 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v52 main_v72 ((extractStridedSlice S16x3x512x512 ![0, 0, 1, 2] · slices_S16x3x514x514_S16x3x512x512_0_0_1_2) : (⟨S16x3x514x514, .f32⟩ : BufTy).Contents (Elt F) → (⟨S16x3x512x512, .f32⟩ : BufTy).Contents (Elt F)),
    StableHlo.binary main_v72 main_arg1 main_v73 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v73 main_v74 (uitofp .f32 : (⟨S16x3x512x512, .i1⟩ : BufTy).Contents (Elt F) → (⟨S16x3x512x512, .f32⟩ : BufTy).Contents (Elt F)),
    StableHlo.nullary main_cst_14 (constant S_ .f32 0x41000000#32),
    StableHlo.unary main_cst_14 main_v75 (broadcastInDim S16x3x512x512 ![] bcast_S_S16x3x512x512 : (⟨S_, .f32⟩ : BufTy).Contents (Elt F) → (⟨S16x3x512x512, .f32⟩ : BufTy).Contents (Elt F)),
    StableHlo.binary main_v75 main_v74 main_v76 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v71 main_v76 main_v77 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v52 main_v78 ((extractStridedSlice S16x3x512x512 ![0, 0, 2, 2] · slices_S16x3x514x514_S16x3x512x512_0_0_2_2) : (⟨S16x3x514x514, .f32⟩ : BufTy).Contents (Elt F) → (⟨S16x3x512x512, .f32⟩ : BufTy).Contents (Elt F)),
    StableHlo.binary main_v78 main_arg1 main_v79 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v79 main_v80 (uitofp .f32 : (⟨S16x3x512x512, .i1⟩ : BufTy).Contents (Elt F) → (⟨S16x3x512x512, .f32⟩ : BufTy).Contents (Elt F)),
    StableHlo.nullary main_cst_15 (constant S_ .f32 0x41800000#32),
    StableHlo.unary main_cst_15 main_v81 (broadcastInDim S16x3x512x512 ![] bcast_S_S16x3x512x512 : (⟨S_, .f32⟩ : BufTy).Contents (Elt F) → (⟨S16x3x512x512, .f32⟩ : BufTy).Contents (Elt F)),
    StableHlo.binary main_v81 main_v80 main_v82 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v77 main_v82 main_v83 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v52 main_v84 ((extractStridedSlice S16x3x512x512 ![0, 0, 2, 1] · slices_S16x3x514x514_S16x3x512x512_0_0_2_1) : (⟨S16x3x514x514, .f32⟩ : BufTy).Contents (Elt F) → (⟨S16x3x512x512, .f32⟩ : BufTy).Contents (Elt F)),
    StableHlo.binary main_v84 main_arg1 main_v85 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v85 main_v86 (uitofp .f32 : (⟨S16x3x512x512, .i1⟩ : BufTy).Contents (Elt F) → (⟨S16x3x512x512, .f32⟩ : BufTy).Contents (Elt F)),
    StableHlo.nullary main_cst_16 (constant S_ .f32 0x42000000#32),
    StableHlo.unary main_cst_16 main_v87 (broadcastInDim S16x3x512x512 ![] bcast_S_S16x3x512x512 : (⟨S_, .f32⟩ : BufTy).Contents (Elt F) → (⟨S16x3x512x512, .f32⟩ : BufTy).Contents (Elt F)),
    StableHlo.binary main_v87 main_v86 main_v88 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v83 main_v88 main_v89 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v52 main_v90 ((extractStridedSlice S16x3x512x512 ![0, 0, 2, 0] · slices_S16x3x514x514_S16x3x512x512_0_0_2_0) : (⟨S16x3x514x514, .f32⟩ : BufTy).Contents (Elt F) → (⟨S16x3x512x512, .f32⟩ : BufTy).Contents (Elt F)),
    StableHlo.binary main_v90 main_arg1 main_v91 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v91 main_v92 (uitofp .f32 : (⟨S16x3x512x512, .i1⟩ : BufTy).Contents (Elt F) → (⟨S16x3x512x512, .f32⟩ : BufTy).Contents (Elt F)),
    StableHlo.nullary main_cst_17 (constant S_ .f32 0x42800000#32),
    StableHlo.unary main_cst_17 main_v93 (broadcastInDim S16x3x512x512 ![] bcast_S_S16x3x512x512 : (⟨S_, .f32⟩ : BufTy).Contents (Elt F) → (⟨S16x3x512x512, .f32⟩ : BufTy).Contents (Elt F)),
    StableHlo.binary main_v93 main_v92 main_v94 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v89 main_v94 main_v95 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v52 main_v96 ((extractStridedSlice S16x3x512x512 ![0, 0, 1, 0] · slices_S16x3x514x514_S16x3x512x512_0_0_1_0) : (⟨S16x3x514x514, .f32⟩ : BufTy).Contents (Elt F) → (⟨S16x3x512x512, .f32⟩ : BufTy).Contents (Elt F)),
    StableHlo.binary main_v96 main_arg1 main_v97 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v97 main_v98 (uitofp .f32 : (⟨S16x3x512x512, .i1⟩ : BufTy).Contents (Elt F) → (⟨S16x3x512x512, .f32⟩ : BufTy).Contents (Elt F)),
    StableHlo.nullary main_cst_18 (constant S_ .f32 0x43000000#32) ]

/-- The operations of the printed part 2 of @main (11 of them). -/
abbrev opsP2 : List (HloOp τ sig (Elt F)) :=
  [ StableHlo.unary main_cst_18 main_v99 (broadcastInDim S16x3x512x512 ![] bcast_S_S16x3x512x512 : (⟨S_, .f32⟩ : BufTy).Contents (Elt F) → (⟨S16x3x512x512, .f32⟩ : BufTy).Contents (Elt F)),
    StableHlo.binary main_v99 main_v98 main_v100 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v95 main_v100 main_v101 (addf : (⟨S16x3x512x512, .f32⟩ : BufTy).Contents (Elt F) → (⟨S16x3x512x512, .f32⟩ : BufTy).Contents (Elt F) → (⟨S16x3x512x512, .f32⟩ : BufTy).Contents (Elt F)),
    StableHlo.nullary main_cst_19 (constant S_ .f32 0x3B808081#32),
    StableHlo.unary main_cst_19 main_v102 (broadcastInDim S16x3x512x512 ![] bcast_S_S16x3x512x512 : (⟨S_, .f32⟩ : BufTy).Contents (Elt F) → (⟨S16x3x512x512, .f32⟩ : BufTy).Contents (Elt F)),
    StableHlo.binary main_v101 main_v102 main_v103 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v51 main_v103 main_v104 (subf : (⟨S16x3x512x512, .f32⟩ : BufTy).Contents (Elt F) → (⟨S16x3x512x512, .f32⟩ : BufTy).Contents (Elt F) → (⟨S16x3x512x512, .f32⟩ : BufTy).Contents (Elt F)),
    StableHlo.unary main_v104 main_v105 (Host.absf : (⟨S16x3x512x512, .f32⟩ : BufTy).Contents (Elt F) → (⟨S16x3x512x512, .f32⟩ : BufTy).Contents (Elt F)),
    StableHlo.nullary main_cst_20 (constant S_ .f32 0x00000000#32),
    StableHlo.binary main_v105 main_cst_20 main_v106 ((fun x v => Host.reduceAdd x v reducesTo_S16x3x512x512_S_d0_1_2_3 h_S_) : (⟨S16x3x512x512, .f32⟩ : BufTy).Contents (Elt F) → (⟨S_, .f32⟩ : BufTy).Contents (Elt F) → (⟨S_, .f32⟩ : BufTy).Contents (Elt F)),
    StableHlo.unary main_v106 main_v107 (Host.sqrt : (⟨S_, .f32⟩ : BufTy).Contents (Elt F) → (⟨S_, .f32⟩ : BufTy).Contents (Elt F)) ]

/-- Stage A: the index constant and the padding of the first argument, ending at main_v0 (17 operations). -/
abbrev stA : List (HloOp τ sig (Elt F)) :=
  [ StableHlo.nullary main_c (constantI S_ 32 0#32),
    StableHlo.TRef.unary (.of main_arg0 : StableHlo.TRef sig ⟨S16x3x512x512, .f32⟩) main_call0.v0 (extractStridedSlice S16x3x1x512 ![0, 0, 0, 0] · slices_S16x3x512x512_S16x3x1x512_0_0_0_0),
    StableHlo.TRef.unary (.of main_arg0 : StableHlo.TRef sig ⟨S16x3x512x512, .f32⟩) main_call0.v1 (extractStridedSlice S16x3x1x512 ![0, 0, 1, 0] · slices_S16x3x512x512_S16x3x1x512_0_0_1_0),
    StableHlo.TRef.unary main_call0.v1 main_call0.call0.v0 (Host.reverse [2]),
    StableHlo.TRef.binary main_call0.call0.v0 (.of main_arg0 : StableHlo.TRef sig ⟨S16x3x512x512, .f32⟩) main_call0.v3 (fun a b => concatenate S16x3x513x512 2 [⟨S16x3x1x512, a⟩, ⟨S16x3x512x512, b⟩] concatenates_S16x3x1x512_S16x3x512x512_S16x3x513x512_d2),
    StableHlo.TRef.unary main_call0.v3 main_call0.v4 (extractStridedSlice S16x3x1x512 ![0, 0, 512, 0] · slices_S16x3x513x512_S16x3x1x512_0_0_512_0),
    StableHlo.TRef.unary main_call0.v3 main_call0.v5 (extractStridedSlice S16x3x1x512 ![0, 0, 511, 0] · slices_S16x3x513x512_S16x3x1x512_0_0_511_0),
    StableHlo.TRef.unary main_call0.v5 main_call0.call1.v0 (Host.reverse [2]),
    StableHlo.TRef.binary main_call0.v3 main_call0.call1.v0 main_call0.v7 (fun a b => concatenate S16x3x514x512 2 [⟨S16x3x513x512, a⟩, ⟨S16x3x1x512, b⟩] concatenates_S16x3x513x512_S16x3x1x512_S16x3x514x512_d2),
    StableHlo.TRef.unary main_call0.v7 main_call0.v8 (extractStridedSlice S16x3x514x1 ![0, 0, 0, 0] · slices_S16x3x514x512_S16x3x514x1_0_0_0_0),
    StableHlo.TRef.unary main_call0.v7 main_call0.v9 (extractStridedSlice S16x3x514x1 ![0, 0, 0, 1] · slices_S16x3x514x512_S16x3x514x1_0_0_0_1),
    StableHlo.TRef.unary main_call0.v9 main_call0.call2.v0 (Host.reverse [3]),
    StableHlo.TRef.binary main_call0.call2.v0 main_call0.v7 main_call0.v11 (fun a b => concatenate S16x3x514x513 3 [⟨S16x3x514x1, a⟩, ⟨S16x3x514x512, b⟩] concatenates_S16x3x514x1_S16x3x514x512_S16x3x514x513_d3),
    StableHlo.TRef.unary main_call0.v11 main_call0.v12 (extractStridedSlice S16x3x514x1 ![0, 0, 0, 512] · slices_S16x3x514x513_S16x3x514x1_0_0_0_512),
    StableHlo.TRef.unary main_call0.v11 main_call0.v13 (extractStridedSlice S16x3x514x1 ![0, 0, 0, 511] · slices_S16x3x514x513_S16x3x514x1_0_0_0_511),
    StableHlo.TRef.unary main_call0.v13 main_call0.call3.v0 (Host.reverse [3]),
    StableHlo.TRef.binary main_call0.v11 main_call0.call3.v0 main_call0.v15 (fun a b => concatenate S16x3x514x514 3 [⟨S16x3x514x513, a⟩, ⟨S16x3x514x1, b⟩] concatenates_S16x3x514x513_S16x3x514x1_S16x3x514x514_d3) ]

/-- Stage B: the scaled pattern code of the first argument, ending at main_v51 (61 operations). -/
abbrev stB : List (HloOp τ sig (Elt F)) :=
  [ StableHlo.nullary main_cst (constant S_ .f32 0x00000000#32),
    StableHlo.unary main_cst main_v1 (broadcastInDim S16x3x512x512 ![] bcast_S_S16x3x512x512 : (⟨S_, .f32⟩ : BufTy).Contents (Elt F) → (⟨S16x3x512x512, .f32⟩ : BufTy).Contents (Elt F)),
    StableHlo.unary main_v0 main_v2 ((extractStridedSlice S16x3x512x512 ![0, 0, 0, 0] · slices_S16x3x514x514_S16x3x512x512_0_0_0_0) : (⟨S16x3x514x514, .f32⟩ : BufTy).Contents (Elt F) → (⟨S16x3x512x512, .f32⟩ : BufTy).Contents (Elt F)),
    StableHlo.binary main_v2 main_arg0 main_v3 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v3 main_v4 (uitofp .f32 : (⟨S16x3x512x512, .i1⟩ : BufTy).Contents (Elt F) → (⟨S16x3x512x512, .f32⟩ : BufTy).Contents (Elt F)),
    StableHlo.nullary main_cst_0 (constant S_ .f32 0x3F800000#32),
    StableHlo.unary main_cst_0 main_v5 (broadcastInDim S16x3x512x512 ![] bcast_S_S16x3x512x512 : (⟨S_, .f32⟩ : BufTy).Contents (Elt F) → (⟨S16x3x512x512, .f32⟩ : BufTy).Contents (Elt F)),
    StableHlo.binary main_v5 main_v4 main_v6 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v1 main_v6 main_v7 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v0 main_v8 ((extractStridedSlice S16x3x512x512 ![0, 0, 0, 1] · slices_S16x3x514x514_S16x3x512x512_0_0_0_1) : (⟨S16x3x514x514, .f32⟩ : BufTy).Contents (Elt F) → (⟨S16x3x512x512, .f32⟩ : BufTy).Contents (Elt F)),
    StableHlo.binary main_v8 main_arg0 main_v9 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v9 main_v10 (uitofp .f32 : (⟨S16x3x512x512, .i1⟩ : BufTy).Contents (Elt F) → (⟨S16x3x512x512, .f32⟩ : BufTy).Contents (Elt F)),
    StableHlo.nullary main_cst_1 (constant S_ .f32 0x40000000#32),
    StableHlo.unary main_cst_1 main_v11 (broadcastInDim S16x3x512x512 ![] bcast_S_S16x3x512x512 : (⟨S_, .f32⟩ : BufTy).Contents (Elt F) → (⟨S16x3x512x512, .f32⟩ : BufTy).Contents (Elt F)),
    StableHlo.binary main_v11 main_v10 main_v12 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v7 main_v12 main_v13 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v0 main_v14 ((extractStridedSlice S16x3x512x512 ![0, 0, 0, 2] · slices_S16x3x514x514_S16x3x512x512_0_0_0_2) : (⟨S16x3x514x514, .f32⟩ : BufTy).Contents (Elt F) → (⟨S16x3x512x512, .f32⟩ : BufTy).Contents (Elt F)),
    StableHlo.binary main_v14 main_arg0 main_v15 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v15 main_v16 (uitofp .f32 : (⟨S16x3x512x512, .i1⟩ : BufTy).Contents (Elt F) → (⟨S16x3x512x512, .f32⟩ : BufTy).Contents (Elt F)),
    StableHlo.nullary main_cst_2 (constant S_ .f32 0x40800000#32),
    StableHlo.unary main_cst_2 main_v17 (broadcastInDim S16x3x512x512 ![] bcast_S_S16x3x512x512 : (⟨S_, .f32⟩ : BufTy).Contents (Elt F) → (⟨S16x3x512x512, .f32⟩ : BufTy).Contents (Elt F)),
    StableHlo.binary main_v17 main_v16 main_v18 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v13 main_v18 main_v19 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v0 main_v20 ((extractStridedSlice S16x3x512x512 ![0, 0, 1, 2] · slices_S16x3x514x514_S16x3x512x512_0_0_1_2) : (⟨S16x3x514x514, .f32⟩ : BufTy).Contents (Elt F) → (⟨S16x3x512x512, .f32⟩ : BufTy).Contents (Elt F)),
    StableHlo.binary main_v20 main_arg0 main_v21 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v21 main_v22 (uitofp .f32 : (⟨S16x3x512x512, .i1⟩ : BufTy).Contents (Elt F) → (⟨S16x3x512x512, .f32⟩ : BufTy).Contents (Elt F)),
    StableHlo.nullary main_cst_3 (constant S_ .f32 0x41000000#32),
    StableHlo.unary main_cst_3 main_v23 (broadcastInDim S16x3x512x512 ![] bcast_S_S16x3x512x512 : (⟨S_, .f32⟩ : BufTy).Contents (Elt F) → (⟨S16x3x512x512, .f32⟩ : BufTy).Contents (Elt F)),
    StableHlo.binary main_v23 main_v22 main_v24 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v19 main_v24 main_v25 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v0 main_v26 ((extractStridedSlice S16x3x512x512 ![0, 0, 2, 2] · slices_S16x3x514x514_S16x3x512x512_0_0_2_2) : (⟨S16x3x514x514, .f32⟩ : BufTy).Contents (Elt F) → (⟨S16x3x512x512, .f32⟩ : BufTy).Contents (Elt F)),
    StableHlo.binary main_v26 main_arg0 main_v27 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v27 main_v28 (uitofp .f32 : (⟨S16x3x512x512, .i1⟩ : BufTy).Contents (Elt F) → (⟨S16x3x512x512, .f32⟩ : BufTy).Contents (Elt F)),
    StableHlo.nullary main_cst_4 (constant S_ .f32 0x41800000#32),
    StableHlo.unary main_cst_4 main_v29 (broadcastInDim S16x3x512x512 ![] bcast_S_S16x3x512x512 : (⟨S_, .f32⟩ : BufTy).Contents (Elt F) → (⟨S16x3x512x512, .f32⟩ : BufTy).Contents (Elt F)),
    StableHlo.binary main_v29 main_v28 main_v30 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v25 main_v30 main_v31 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v0 main_v32 ((extractStridedSlice S16x3x512x512 ![0, 0, 2, 1] · slices_S16x3x514x514_S16x3x512x512_0_0_2_1) : (⟨S16x3x514x514, .f32⟩ : BufTy).Contents (Elt F) → (⟨S16x3x512x512, .f32⟩ : BufTy).Contents (Elt F)),
    StableHlo.binary main_v32 main_arg0 main_v33 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v33 main_v34 (uitofp .f32 : (⟨S16x3x512x512, .i1⟩ : BufTy).Contents (Elt F) → (⟨S16x3x512x512, .f32⟩ : BufTy).Contents (Elt F)),
    StableHlo.nullary main_cst_5 (constant S_ .f32 0x42000000#32),
    StableHlo.unary main_cst_5 main_v35 (broadcastInDim S16x3x512x512 ![] bcast_S_S16x3x512x512 : (⟨S_, .f32⟩ : BufTy).Contents (Elt F) → (⟨S16x3x512x512, .f32⟩ : BufTy).Contents (Elt F)),
    StableHlo.binary main_v35 main_v34 main_v36 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v31 main_v36 main_v37 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v0 main_v38 ((extractStridedSlice S16x3x512x512 ![0, 0, 2, 0] · slices_S16x3x514x514_S16x3x512x512_0_0_2_0) : (⟨S16x3x514x514, .f32⟩ : BufTy).Contents (Elt F) → (⟨S16x3x512x512, .f32⟩ : BufTy).Contents (Elt F)),
    StableHlo.binary main_v38 main_arg0 main_v39 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v39 main_v40 (uitofp .f32 : (⟨S16x3x512x512, .i1⟩ : BufTy).Contents (Elt F) → (⟨S16x3x512x512, .f32⟩ : BufTy).Contents (Elt F)),
    StableHlo.nullary main_cst_6 (constant S_ .f32 0x42800000#32),
    StableHlo.unary main_cst_6 main_v41 (broadcastInDim S16x3x512x512 ![] bcast_S_S16x3x512x512 : (⟨S_, .f32⟩ : BufTy).Contents (Elt F) → (⟨S16x3x512x512, .f32⟩ : BufTy).Contents (Elt F)),
    StableHlo.binary main_v41 main_v40 main_v42 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v37 main_v42 main_v43 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v0 main_v44 ((extractStridedSlice S16x3x512x512 ![0, 0, 1, 0] · slices_S16x3x514x514_S16x3x512x512_0_0_1_0) : (⟨S16x3x514x514, .f32⟩ : BufTy).Contents (Elt F) → (⟨S16x3x512x512, .f32⟩ : BufTy).Contents (Elt F)),
    StableHlo.binary main_v44 main_arg0 main_v45 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v45 main_v46 (uitofp .f32 : (⟨S16x3x512x512, .i1⟩ : BufTy).Contents (Elt F) → (⟨S16x3x512x512, .f32⟩ : BufTy).Contents (Elt F)),
    StableHlo.nullary main_cst_7 (constant S_ .f32 0x43000000#32),
    StableHlo.unary main_cst_7 main_v47 (broadcastInDim S16x3x512x512 ![] bcast_S_S16x3x512x512 : (⟨S_, .f32⟩ : BufTy).Contents (Elt F) → (⟨S16x3x512x512, .f32⟩ : BufTy).Contents (Elt F)),
    StableHlo.binary main_v47 main_v46 main_v48 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v43 main_v48 main_v49 (addf : (⟨S16x3x512x512, .f32⟩ : BufTy).Contents (Elt F) → (⟨S16x3x512x512, .f32⟩ : BufTy).Contents (Elt F) → (⟨S16x3x512x512, .f32⟩ : BufTy).Contents (Elt F)),
    StableHlo.nullary main_cst_8 (constant S_ .f32 0x3B808081#32),
    StableHlo.unary main_cst_8 main_v50 (broadcastInDim S16x3x512x512 ![] bcast_S_S16x3x512x512 : (⟨S_, .f32⟩ : BufTy).Contents (Elt F) → (⟨S16x3x512x512, .f32⟩ : BufTy).Contents (Elt F)),
    StableHlo.binary main_v49 main_v50 main_v51 (mulf : (⟨S16x3x512x512, .f32⟩ : BufTy).Contents (Elt F) → (⟨S16x3x512x512, .f32⟩ : BufTy).Contents (Elt F) → (⟨S16x3x512x512, .f32⟩ : BufTy).Contents (Elt F)) ]

/-- Stage C: the index constant and the padding of the second argument, ending at main_v52 (17 operations). -/
abbrev stC : List (HloOp τ sig (Elt F)) :=
  [ StableHlo.nullary main_c_9 (constantI S_ 32 0#32),
    StableHlo.TRef.unary (.of main_arg1 : StableHlo.TRef sig ⟨S16x3x512x512, .f32⟩) main_call1.v0 (extractStridedSlice S16x3x1x512 ![0, 0, 0, 0] · slices_S16x3x512x512_S16x3x1x512_0_0_0_0),
    StableHlo.TRef.unary (.of main_arg1 : StableHlo.TRef sig ⟨S16x3x512x512, .f32⟩) main_call1.v1 (extractStridedSlice S16x3x1x512 ![0, 0, 1, 0] · slices_S16x3x512x512_S16x3x1x512_0_0_1_0),
    StableHlo.TRef.unary main_call1.v1 main_call1.call0.v0 (Host.reverse [2]),
    StableHlo.TRef.binary main_call1.call0.v0 (.of main_arg1 : StableHlo.TRef sig ⟨S16x3x512x512, .f32⟩) main_call1.v3 (fun a b => concatenate S16x3x513x512 2 [⟨S16x3x1x512, a⟩, ⟨S16x3x512x512, b⟩] concatenates_S16x3x1x512_S16x3x512x512_S16x3x513x512_d2),
    StableHlo.TRef.unary main_call1.v3 main_call1.v4 (extractStridedSlice S16x3x1x512 ![0, 0, 512, 0] · slices_S16x3x513x512_S16x3x1x512_0_0_512_0),
    StableHlo.TRef.unary main_call1.v3 main_call1.v5 (extractStridedSlice S16x3x1x512 ![0, 0, 511, 0] · slices_S16x3x513x512_S16x3x1x512_0_0_511_0),
    StableHlo.TRef.unary main_call1.v5 main_call1.call1.v0 (Host.reverse [2]),
    StableHlo.TRef.binary main_call1.v3 main_call1.call1.v0 main_call1.v7 (fun a b => concatenate S16x3x514x512 2 [⟨S16x3x513x512, a⟩, ⟨S16x3x1x512, b⟩] concatenates_S16x3x513x512_S16x3x1x512_S16x3x514x512_d2),
    StableHlo.TRef.unary main_call1.v7 main_call1.v8 (extractStridedSlice S16x3x514x1 ![0, 0, 0, 0] · slices_S16x3x514x512_S16x3x514x1_0_0_0_0),
    StableHlo.TRef.unary main_call1.v7 main_call1.v9 (extractStridedSlice S16x3x514x1 ![0, 0, 0, 1] · slices_S16x3x514x512_S16x3x514x1_0_0_0_1),
    StableHlo.TRef.unary main_call1.v9 main_call1.call2.v0 (Host.reverse [3]),
    StableHlo.TRef.binary main_call1.call2.v0 main_call1.v7 main_call1.v11 (fun a b => concatenate S16x3x514x513 3 [⟨S16x3x514x1, a⟩, ⟨S16x3x514x512, b⟩] concatenates_S16x3x514x1_S16x3x514x512_S16x3x514x513_d3),
    StableHlo.TRef.unary main_call1.v11 main_call1.v12 (extractStridedSlice S16x3x514x1 ![0, 0, 0, 512] · slices_S16x3x514x513_S16x3x514x1_0_0_0_512),
    StableHlo.TRef.unary main_call1.v11 main_call1.v13 (extractStridedSlice S16x3x514x1 ![0, 0, 0, 511] · slices_S16x3x514x513_S16x3x514x1_0_0_0_511),
    StableHlo.TRef.unary main_call1.v13 main_call1.call3.v0 (Host.reverse [3]),
    StableHlo.TRef.binary main_call1.v11 main_call1.call3.v0 main_call1.v15 (fun a b => concatenate S16x3x514x514 3 [⟨S16x3x514x513, a⟩, ⟨S16x3x514x1, b⟩] concatenates_S16x3x514x513_S16x3x514x1_S16x3x514x514_d3) ]

/-- Stage D: the scaled pattern code of the second argument, ending at main_v103 (61 operations). -/
abbrev stD : List (HloOp τ sig (Elt F)) :=
  [ StableHlo.nullary main_cst_10 (constant S_ .f32 0x00000000#32),
    StableHlo.unary main_cst_10 main_v53 (broadcastInDim S16x3x512x512 ![] bcast_S_S16x3x512x512 : (⟨S_, .f32⟩ : BufTy).Contents (Elt F) → (⟨S16x3x512x512, .f32⟩ : BufTy).Contents (Elt F)),
    StableHlo.unary main_v52 main_v54 ((extractStridedSlice S16x3x512x512 ![0, 0, 0, 0] · slices_S16x3x514x514_S16x3x512x512_0_0_0_0) : (⟨S16x3x514x514, .f32⟩ : BufTy).Contents (Elt F) → (⟨S16x3x512x512, .f32⟩ : BufTy).Contents (Elt F)),
    StableHlo.binary main_v54 main_arg1 main_v55 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v55 main_v56 (uitofp .f32 : (⟨S16x3x512x512, .i1⟩ : BufTy).Contents (Elt F) → (⟨S16x3x512x512, .f32⟩ : BufTy).Contents (Elt F)),
    StableHlo.nullary main_cst_11 (constant S_ .f32 0x3F800000#32),
    StableHlo.unary main_cst_11 main_v57 (broadcastInDim S16x3x512x512 ![] bcast_S_S16x3x512x512 : (⟨S_, .f32⟩ : BufTy).Contents (Elt F) → (⟨S16x3x512x512, .f32⟩ : BufTy).Contents (Elt F)),
    StableHlo.binary main_v57 main_v56 main_v58 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v53 main_v58 main_v59 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v52 main_v60 ((extractStridedSlice S16x3x512x512 ![0, 0, 0, 1] · slices_S16x3x514x514_S16x3x512x512_0_0_0_1) : (⟨S16x3x514x514, .f32⟩ : BufTy).Contents (Elt F) → (⟨S16x3x512x512, .f32⟩ : BufTy).Contents (Elt F)),
    StableHlo.binary main_v60 main_arg1 main_v61 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v61 main_v62 (uitofp .f32 : (⟨S16x3x512x512, .i1⟩ : BufTy).Contents (Elt F) → (⟨S16x3x512x512, .f32⟩ : BufTy).Contents (Elt F)),
    StableHlo.nullary main_cst_12 (constant S_ .f32 0x40000000#32),
    StableHlo.unary main_cst_12 main_v63 (broadcastInDim S16x3x512x512 ![] bcast_S_S16x3x512x512 : (⟨S_, .f32⟩ : BufTy).Contents (Elt F) → (⟨S16x3x512x512, .f32⟩ : BufTy).Contents (Elt F)),
    StableHlo.binary main_v63 main_v62 main_v64 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v59 main_v64 main_v65 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v52 main_v66 ((extractStridedSlice S16x3x512x512 ![0, 0, 0, 2] · slices_S16x3x514x514_S16x3x512x512_0_0_0_2) : (⟨S16x3x514x514, .f32⟩ : BufTy).Contents (Elt F) → (⟨S16x3x512x512, .f32⟩ : BufTy).Contents (Elt F)),
    StableHlo.binary main_v66 main_arg1 main_v67 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v67 main_v68 (uitofp .f32 : (⟨S16x3x512x512, .i1⟩ : BufTy).Contents (Elt F) → (⟨S16x3x512x512, .f32⟩ : BufTy).Contents (Elt F)),
    StableHlo.nullary main_cst_13 (constant S_ .f32 0x40800000#32),
    StableHlo.unary main_cst_13 main_v69 (broadcastInDim S16x3x512x512 ![] bcast_S_S16x3x512x512 : (⟨S_, .f32⟩ : BufTy).Contents (Elt F) → (⟨S16x3x512x512, .f32⟩ : BufTy).Contents (Elt F)),
    StableHlo.binary main_v69 main_v68 main_v70 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v65 main_v70 main_v71 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v52 main_v72 ((extractStridedSlice S16x3x512x512 ![0, 0, 1, 2] · slices_S16x3x514x514_S16x3x512x512_0_0_1_2) : (⟨S16x3x514x514, .f32⟩ : BufTy).Contents (Elt F) → (⟨S16x3x512x512, .f32⟩ : BufTy).Contents (Elt F)),
    StableHlo.binary main_v72 main_arg1 main_v73 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v73 main_v74 (uitofp .f32 : (⟨S16x3x512x512, .i1⟩ : BufTy).Contents (Elt F) → (⟨S16x3x512x512, .f32⟩ : BufTy).Contents (Elt F)),
    StableHlo.nullary main_cst_14 (constant S_ .f32 0x41000000#32),
    StableHlo.unary main_cst_14 main_v75 (broadcastInDim S16x3x512x512 ![] bcast_S_S16x3x512x512 : (⟨S_, .f32⟩ : BufTy).Contents (Elt F) → (⟨S16x3x512x512, .f32⟩ : BufTy).Contents (Elt F)),
    StableHlo.binary main_v75 main_v74 main_v76 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v71 main_v76 main_v77 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v52 main_v78 ((extractStridedSlice S16x3x512x512 ![0, 0, 2, 2] · slices_S16x3x514x514_S16x3x512x512_0_0_2_2) : (⟨S16x3x514x514, .f32⟩ : BufTy).Contents (Elt F) → (⟨S16x3x512x512, .f32⟩ : BufTy).Contents (Elt F)),
    StableHlo.binary main_v78 main_arg1 main_v79 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v79 main_v80 (uitofp .f32 : (⟨S16x3x512x512, .i1⟩ : BufTy).Contents (Elt F) → (⟨S16x3x512x512, .f32⟩ : BufTy).Contents (Elt F)),
    StableHlo.nullary main_cst_15 (constant S_ .f32 0x41800000#32),
    StableHlo.unary main_cst_15 main_v81 (broadcastInDim S16x3x512x512 ![] bcast_S_S16x3x512x512 : (⟨S_, .f32⟩ : BufTy).Contents (Elt F) → (⟨S16x3x512x512, .f32⟩ : BufTy).Contents (Elt F)),
    StableHlo.binary main_v81 main_v80 main_v82 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v77 main_v82 main_v83 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v52 main_v84 ((extractStridedSlice S16x3x512x512 ![0, 0, 2, 1] · slices_S16x3x514x514_S16x3x512x512_0_0_2_1) : (⟨S16x3x514x514, .f32⟩ : BufTy).Contents (Elt F) → (⟨S16x3x512x512, .f32⟩ : BufTy).Contents (Elt F)),
    StableHlo.binary main_v84 main_arg1 main_v85 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v85 main_v86 (uitofp .f32 : (⟨S16x3x512x512, .i1⟩ : BufTy).Contents (Elt F) → (⟨S16x3x512x512, .f32⟩ : BufTy).Contents (Elt F)),
    StableHlo.nullary main_cst_16 (constant S_ .f32 0x42000000#32),
    StableHlo.unary main_cst_16 main_v87 (broadcastInDim S16x3x512x512 ![] bcast_S_S16x3x512x512 : (⟨S_, .f32⟩ : BufTy).Contents (Elt F) → (⟨S16x3x512x512, .f32⟩ : BufTy).Contents (Elt F)),
    StableHlo.binary main_v87 main_v86 main_v88 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v83 main_v88 main_v89 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v52 main_v90 ((extractStridedSlice S16x3x512x512 ![0, 0, 2, 0] · slices_S16x3x514x514_S16x3x512x512_0_0_2_0) : (⟨S16x3x514x514, .f32⟩ : BufTy).Contents (Elt F) → (⟨S16x3x512x512, .f32⟩ : BufTy).Contents (Elt F)),
    StableHlo.binary main_v90 main_arg1 main_v91 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v91 main_v92 (uitofp .f32 : (⟨S16x3x512x512, .i1⟩ : BufTy).Contents (Elt F) → (⟨S16x3x512x512, .f32⟩ : BufTy).Contents (Elt F)),
    StableHlo.nullary main_cst_17 (constant S_ .f32 0x42800000#32),
    StableHlo.unary main_cst_17 main_v93 (broadcastInDim S16x3x512x512 ![] bcast_S_S16x3x512x512 : (⟨S_, .f32⟩ : BufTy).Contents (Elt F) → (⟨S16x3x512x512, .f32⟩ : BufTy).Contents (Elt F)),
    StableHlo.binary main_v93 main_v92 main_v94 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v89 main_v94 main_v95 (addf : (⟨S16x3x512x512, .f32⟩ : BufTy).Contents (Elt F) → (⟨S16x3x512x512, .f32⟩ : BufTy).Contents (Elt F) → (⟨S16x3x512x512, .f32⟩ : BufTy).Contents (Elt F)),
    StableHlo.unary main_v52 main_v96 ((extractStridedSlice S16x3x512x512 ![0, 0, 1, 0] · slices_S16x3x514x514_S16x3x512x512_0_0_1_0) : (⟨S16x3x514x514, .f32⟩ : BufTy).Contents (Elt F) → (⟨S16x3x512x512, .f32⟩ : BufTy).Contents (Elt F)),
    StableHlo.binary main_v96 main_arg1 main_v97 (cmpf .oge : (⟨S16x3x512x512, .f32⟩ : BufTy).Contents (Elt F) → (⟨S16x3x512x512, .f32⟩ : BufTy).Contents (Elt F) → (⟨S16x3x512x512, .i1⟩ : BufTy).Contents (Elt F)),
    StableHlo.unary main_v97 main_v98 (uitofp .f32 : (⟨S16x3x512x512, .i1⟩ : BufTy).Contents (Elt F) → (⟨S16x3x512x512, .f32⟩ : BufTy).Contents (Elt F)),
    StableHlo.nullary main_cst_18 (constant S_ .f32 0x43000000#32),
    StableHlo.unary main_cst_18 main_v99 (broadcastInDim S16x3x512x512 ![] bcast_S_S16x3x512x512 : (⟨S_, .f32⟩ : BufTy).Contents (Elt F) → (⟨S16x3x512x512, .f32⟩ : BufTy).Contents (Elt F)),
    StableHlo.binary main_v99 main_v98 main_v100 (mulf : (⟨S16x3x512x512, .f32⟩ : BufTy).Contents (Elt F) → (⟨S16x3x512x512, .f32⟩ : BufTy).Contents (Elt F) → (⟨S16x3x512x512, .f32⟩ : BufTy).Contents (Elt F)),
    StableHlo.binary main_v95 main_v100 main_v101 (addf : (⟨S16x3x512x512, .f32⟩ : BufTy).Contents (Elt F) → (⟨S16x3x512x512, .f32⟩ : BufTy).Contents (Elt F) → (⟨S16x3x512x512, .f32⟩ : BufTy).Contents (Elt F)),
    StableHlo.nullary main_cst_19 (constant S_ .f32 0x3B808081#32),
    StableHlo.unary main_cst_19 main_v102 (broadcastInDim S16x3x512x512 ![] bcast_S_S16x3x512x512 : (⟨S_, .f32⟩ : BufTy).Contents (Elt F) → (⟨S16x3x512x512, .f32⟩ : BufTy).Contents (Elt F)),
    StableHlo.binary main_v101 main_v102 main_v103 (mulf : (⟨S16x3x512x512, .f32⟩ : BufTy).Contents (Elt F) → (⟨S16x3x512x512, .f32⟩ : BufTy).Contents (Elt F) → (⟨S16x3x512x512, .f32⟩ : BufTy).Contents (Elt F)) ]

/-- Stage E: difference, absolute value, total sum, square root, ending at main_v107 (5 operations). -/
abbrev stE : List (HloOp τ sig (Elt F)) :=
  [ StableHlo.binary main_v51 main_v103 main_v104 (subf : (⟨S16x3x512x512, .f32⟩ : BufTy).Contents (Elt F) → (⟨S16x3x512x512, .f32⟩ : BufTy).Contents (Elt F) → (⟨S16x3x512x512, .f32⟩ : BufTy).Contents (Elt F)),
    StableHlo.unary main_v104 main_v105 (Host.absf : (⟨S16x3x512x512, .f32⟩ : BufTy).Contents (Elt F) → (⟨S16x3x512x512, .f32⟩ : BufTy).Contents (Elt F)),
    StableHlo.nullary main_cst_20 (constant S_ .f32 0x00000000#32),
    StableHlo.binary main_v105 main_cst_20 main_v106 ((fun x v => Host.reduceAdd x v reducesTo_S16x3x512x512_S_d0_1_2_3 h_S_) : (⟨S16x3x512x512, .f32⟩ : BufTy).Contents (Elt F) → (⟨S_, .f32⟩ : BufTy).Contents (Elt F) → (⟨S_, .f32⟩ : BufTy).Contents (Elt F)),
    StableHlo.unary main_v106 main_v107 (Host.sqrt : (⟨S_, .f32⟩ : BufTy).Contents (Elt F) → (⟨S_, .f32⟩ : BufTy).Contents (Elt F)) ]

end Cert.ReferenceIdeal.RefOps

end
-- ==== Proof.RefRun.lean ====
/-
  The reference program runs: its @main is the straight line of its host operations (the two calls of the padding
  function unfolded at their call sites), so every execution ends with each buffer at the operations' fold.
-/
import proofs.«130637_j39152921870850_1_alg».proof.Proof.RefOps

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-- All of @main's operations, stage by stage. -/
abbrev stages : List (HloOp τ sig (Elt F)) := stA ++ (stB ++ (stC ++ (stD ++ stE)))

/-! ## Each printed part is its line of operations

A part that calls the padding function is a chain of steps only once the callee's body (and the two flips'
bodies inside it) stands at the call site and sequencing is re-associated to the right (associativity of bind,
`pure` a left unit); after that both sides are the same chain of steps. -/

set_option maxRecDepth 8192 in
private theorem main_part0_eq (c : Dev nD) : main_part0 (F := F) c = seq opsP0 := by
  simp only [main_part0, fn_pad.body, fn_flip.body, fn_flip_0.body, seq, bind_assoc, pure_bind]
  rfl

set_option maxRecDepth 8192 in
private theorem main_part1_eq (c : Dev nD) : main_part1 (F := F) c = seq opsP1 := by
  simp only [main_part1, fn_pad.body, fn_flip.body, fn_flip_0.body, seq, bind_assoc, pure_bind]
  rfl

set_option maxRecDepth 8192 in
private theorem main_part2_eq (c : Dev nD) : main_part2 (F := F) c = seq opsP2 := rfl

/-- @main's operations as its printed parts cut them. -/
private abbrev parts : List (HloOp τ sig (Elt F)) := opsP0 ++ (opsP1 ++ opsP2)

set_option maxRecDepth 8192 in
/-- @main runs its parts in order, and two lines run one after the other are their concatenation run as one. -/
private theorem main_eq (c : Dev nD) : main (F := F) c = seq parts := by
  simp only [parts, seq_append, ← main_part0_eq c, ← main_part1_eq c, ← main_part2_eq c]
  rfl

/-- The parts and the stages cut one list of 161 operations at different places. -/
private theorem parts_eq_stages : (parts : List (HloOp τ sig (Elt F))) = stages := by
  simp only [parts, stages, List.cons_append, List.nil_append]

/-! ## Nothing is scoped, and every operation names TensorCore buffers only -/

private theorem scopedRefs_eq : (Finset.univ.filter fun b : Ref sig .tc => b.isScoped) = ∅ := by decide
private theorem scopedSems_eq : (Finset.univ.filter fun sm : SemLoc sig => sm.isScoped .tc) = ∅ := by decide

set_option maxRecDepth 8192 in
private theorem opsP0_sub : (opsP0 : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub .., unary_bufs_sub .., unary_bufs_sub .., unary_bufs_sub ..,
    binary_bufs_sub .., unary_bufs_sub .., unary_bufs_sub .., unary_bufs_sub .., binary_bufs_sub .., nullary_bufs_sub ..,
    unary_bufs_sub .., unary_bufs_sub .., binary_bufs_sub .., unary_bufs_sub .., nullary_bufs_sub .., unary_bufs_sub ..,
    binary_bufs_sub .., binary_bufs_sub .., unary_bufs_sub .., binary_bufs_sub .., unary_bufs_sub .., nullary_bufs_sub ..,
    unary_bufs_sub .., binary_bufs_sub .., binary_bufs_sub .., unary_bufs_sub .., binary_bufs_sub .., unary_bufs_sub ..,
    nullary_bufs_sub .., unary_bufs_sub .., binary_bufs_sub .., binary_bufs_sub .., unary_bufs_sub .., binary_bufs_sub ..,
    unary_bufs_sub .., nullary_bufs_sub .., unary_bufs_sub .., binary_bufs_sub .., binary_bufs_sub .., unary_bufs_sub ..,
    binary_bufs_sub .., unary_bufs_sub .., nullary_bufs_sub .., unary_bufs_sub .., binary_bufs_sub .., binary_bufs_sub ..,
    unary_bufs_sub .., binary_bufs_sub .., unary_bufs_sub .., nullary_bufs_sub .., unary_bufs_sub .., binary_bufs_sub ..,
    binary_bufs_sub .., unary_bufs_sub .., binary_bufs_sub .., unary_bufs_sub .., nullary_bufs_sub .., unary_bufs_sub ..,
    binary_bufs_sub .., binary_bufs_sub .., unary_bufs_sub .., binary_bufs_sub .., unary_bufs_sub .., nullary_bufs_sub ..,
    unary_bufs_sub .., binary_bufs_sub .., binary_bufs_sub ..⟩

set_option maxRecDepth 8192 in
private theorem opsP1_sub : (opsP1 : List (HloOp τ sig (Elt F))).Forall fun op => op.bufs ⊆ tcRefs τ sig :=
  ⟨nullary_bufs_sub .., unary_bufs_sub .., binary_bufs_sub .., nullary_bufs_sub .., unary_bufs_sub .., unary_bufs_sub ..,
    unary_bufs_sub .., binary_bufs_sub .., unary_bufs_sub .., unary_bufs_sub .., unary_bufs_sub .., binary_bufs_sub ..,
    unary_bufs_sub .., unary_bufs_sub .., unary_bufs_sub .., binary_bufs_sub .., unary_bufs_sub .., unary_bufs_sub ..,
    unary_bufs_sub .., binary_bufs_sub .., nullary_bufs_sub .., unary_bufs_sub .., unary_bufs_sub .., binary_bufs_sub ..,
    unary_bufs_sub .., nullary_bufs_sub .., unary_bufs_sub .., binary_bufs_sub .., binary_bufs_sub .., unary_bufs_sub ..,
    binary_bufs_sub .., unary_bufs_sub .., nullary_bufs_sub .., unary_bufs_sub .., binary_bufs_sub .., binary_bufs_sub ..,
    unary_bufs_sub .., binary_bufs_sub .., unary_bufs_sub .., nullary_bufs_sub .., unary_bufs_sub .., binary_bufs_sub ..,
    binary_bufs_sub .., unary_bufs_sub .., binary_bufs_sub .., unary_bufs_sub .., nullary_bufs_sub .., unary_bufs_sub ..,
    binary_bufs_sub .., binary_bufs_sub .., unary_bufs_sub .., binary_bufs_sub .., unary_bufs_sub .., nullary_bufs_sub ..,
    unary_bufs_sub .., binary_bufs_sub .., binary_bufs_sub .., unary_bufs_sub .., binary_bufs_sub .., unary_bufs_sub ..,
    nullary_bufs_sub .., unary_bufs_sub .., binary_bufs_sub .., binary_bufs_sub .., unary_bufs_sub .., binary_bufs_sub ..,
    unary_bufs_sub .., nullary_bufs_sub .., unary_bufs_sub .., binary_bufs_sub .., binary_bufs_sub .., unary_bufs_sub ..,
    binary_bufs_sub .., unary_bufs_sub .., nullary_bufs_sub ..⟩

set_option maxRecDepth 8192 in
private theorem opsP2_sub : (opsP2 : List (HloOp τ sig (Elt F))).Forall fun op => op.bufs ⊆ tcRefs τ sig :=
  ⟨unary_bufs_sub .., binary_bufs_sub .., binary_bufs_sub .., nullary_bufs_sub .., unary_bufs_sub .., binary_bufs_sub ..,
    binary_bufs_sub .., unary_bufs_sub .., nullary_bufs_sub .., binary_bufs_sub .., unary_bufs_sub ..⟩

private theorem parts_sub : (parts : List (HloOp τ sig (Elt F))).Forall fun op => op.bufs ⊆ tcRefs τ sig :=
  List.forall_iff_forall_mem.mpr fun op h => by
    simp only [parts, List.mem_append] at h
    rcases h with h | h | h
    exacts [List.forall_iff_forall_mem.mp opsP0_sub op h, List.forall_iff_forall_mem.mp opsP1_sub op h,
      List.forall_iff_forall_mem.mp opsP2_sub op h]

set_option maxRecDepth 8192 in
/-- Every weakly fair execution of the reference terminates, each buffer at the parts' fold over its launch contents. -/
private theorem run_parts (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after (parts (F := F)) (launchContents m c) (Proc.devRef .tc b) :=
  run_seq scopedRefs_eq scopedSems_eq defs main (fun _ => parts) main_eq (fun _ => parts_sub) m ρ

/-- Every weakly fair execution of the reference terminates, each buffer at the stages' fold over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after (stages (F := F)) (launchContents m c) (Proc.devRef .tc b) := by
  have h := run_parts (F := F) m ρ
  rw [parts_eq_stages] at h
  exact h

end Cert.ReferenceIdeal.RefRun

end
-- ==== Proof.Spec.lean ====
/-
  The mathematics both programs compute, stated once over literal shapes and any float instance.

  An image batch x : f32[16,3,512,512] is padded by one reflected pixel on each side of its two trailing axes
  (P = pad x : f32[16,3,514,514]; P[b,c,1+i,1+j] = x[b,c,i,j]).  The local binary pattern code of a pixel is
      code(P, x)[b,c,i,j] = sum over the eight neighbours k of 2^k * [ P[b,c,i+dy_k,j+dx_k] >= x[b,c,i,j] ],
  the neighbours taken in the order (0,0) (0,1) (0,2) (1,2) (2,2) (2,1) (2,0) (1,0) of offsets into P, added from
  zero in that order.  The loss of two batches is
      sqrt( 0 + sum over all pixels of | code(pad x, x) * c  -  code(pad y, y) * c | ),   c = f32(1/255),
  which is how the host program spells it: `lossV`.
-/
import Idealize.ShloMosaic.PureOps.Ideal
import Idealize.ShloMosaic.PureOps.Ideal.Laws
import Idealize.ShloMosaic.Lib.ValueIdx

noncomputable section

namespace Cert.Lbp

open Idealize.ShloMosaic

abbrev S0 : Shape := ⟨0, ![]⟩
abbrev SImg : Shape := ⟨4, ![16, 3, 512, 512]⟩
abbrev SPad : Shape := ⟨4, ![16, 3, 514, 514]⟩
abbrev SRow1 : Shape := ⟨4, ![16, 3, 1, 512]⟩
abbrev SRow513 : Shape := ⟨4, ![16, 3, 513, 512]⟩
abbrev SRow514 : Shape := ⟨4, ![16, 3, 514, 512]⟩
abbrev SCol1 : Shape := ⟨4, ![16, 3, 514, 1]⟩
abbrev SCol513 : Shape := ⟨4, ![16, 3, 514, 513]⟩

theorem cat_rows_top : Shape.Concatenates [SRow1, SImg] SRow513 2 := by decide
theorem cat_rows_bottom : Shape.Concatenates [SRow513, SRow1] SRow514 2 := by decide
theorem cat_cols_left : Shape.Concatenates [SCol1, SRow514] SCol513 3 := by decide
theorem cat_cols_right : Shape.Concatenates [SCol513, SCol1] SPad 3 := by decide

variable {F : FTy → Type} [FloatOps F]

/-- The reflected padding, as the host spells it: the row after the first is put before it and the row before
    the last after it, then the same with columns (a reversal of a one-row or one-column strip is that strip). -/
def padV (x : FVec F SImg .f32) : FVec F SPad .f32 :=
  let r1 : FVec F SRow1 .f32 := extractStridedSlice SRow1 ![0, 0, 1, 0] x (by decide)
  let r1' : FVec F SRow1 .f32 := Host.reverse [2] r1
  let a : FVec F SRow513 .f32 := concatenate SRow513 2 [⟨SRow1, r1'⟩, ⟨SImg, x⟩] cat_rows_top
  let r2 : FVec F SRow1 .f32 := extractStridedSlice SRow1 ![0, 0, 511, 0] a (by decide)
  let r2' : FVec F SRow1 .f32 := Host.reverse [2] r2
  let b : FVec F SRow514 .f32 := concatenate SRow514 2 [⟨SRow513, a⟩, ⟨SRow1, r2'⟩] cat_rows_bottom
  let c1 : FVec F SCol1 .f32 := extractStridedSlice SCol1 ![0, 0, 0, 1] b (by decide)
  let c1' : FVec F SCol1 .f32 := Host.reverse [3] c1
  let d : FVec F SCol513 .f32 := concatenate SCol513 3 [⟨SCol1, c1'⟩, ⟨SRow514, b⟩] cat_cols_left
  let c2 : FVec F SCol1 .f32 := extractStridedSlice SCol1 ![0, 0, 0, 511] d (by decide)
  let c2' : FVec F SCol1 .f32 := Host.reverse [3] c2
  concatenate SPad 3 [⟨SCol513, d⟩, ⟨SCol1, c2'⟩] cat_cols_right

/-- A scalar constant spread over the image shape. -/
def splatV (w : BitVec 32) : FVec F SImg .f32 :=
  broadcastInDim SImg ![] (by decide) (constant S0 .f32 w)

/-- One neighbour's weighted bit: the weight times (1 where the neighbour at the offset is at least the pixel, else 0). -/
def termV (P : FVec F SPad .f32) (x : FVec F SImg .f32) (off : Fin 4 → Nat) (h : SPad.Slices off SImg) (w : BitVec 32) :
    FVec F SImg .f32 :=
  mulf (splatV w) (uitofp .f32 (cmpf .oge (extractStridedSlice SImg off P h) x))

/-- The pattern code of every pixel: the eight weighted bits added from zero in neighbour order. -/
def codeV (P : FVec F SPad .f32) (x : FVec F SImg .f32) : FVec F SImg .f32 :=
  addf (addf (addf (addf (addf (addf (addf (addf (splatV 0x00000000#32)
    (termV P x ![0, 0, 0, 0] (by decide) 0x3F800000#32))
    (termV P x ![0, 0, 0, 1] (by decide) 0x40000000#32))
    (termV P x ![0, 0, 0, 2] (by decide) 0x40800000#32))
    (termV P x ![0, 0, 1, 2] (by decide) 0x41000000#32))
    (termV P x ![0, 0, 2, 2] (by decide) 0x41800000#32))
    (termV P x ![0, 0, 2, 1] (by decide) 0x42000000#32))
    (termV P x ![0, 0, 2, 0] (by decide) 0x42800000#32))
    (termV P x ![0, 0, 1, 0] (by decide) 0x43000000#32)

/-- The code scaled by c = f32(1/255). -/
def lbpV (x : FVec F SImg .f32) : FVec F SImg .f32 :=
  mulf (codeV (padV x) x) (splatV 0x3B808081#32)

/-- The loss as the host program computes it. -/
def lossV (x y : FVec F SImg .f32) : FVec F S0 .f32 :=
  Host.sqrt (Host.reduceAdd (Host.absf (subf (lbpV x) (lbpV y))) (constant S0 .f32 0x00000000#32)
    (by decide : SImg.ReducesTo [0, 1, 2, 3] S0) (by decide : 0 < S0.numel))

end Cert.Lbp

end
-- ==== Proof.RefValue.lean ====
/-
  What the reference's operations compute: folded over any contents, the result buffer holds the loss of the two
  arguments (the host's own term, `Cert.Lbp.lossV`), and the arguments are not written.

  The line is taken stage by stage.  Each stage's fold is named (`valA` … `valE`); a stage writes a known list of
  buffers and leaves every other buffer as it found it, and the one buffer a later stage reads from it holds a term of
  the arguments' contents stated with the specification's own functions: the padded images (`padV`), the scaled codes
  (`lbpV`), the loss (`lossV`).  The fold of the concatenated line is the folds in turn.
-/
import proofs.«130637_j39152921870850_1_alg».proof.Proof.RefOps
import proofs.«130637_j39152921870850_1_alg».proof.Proof.Spec

noncomputable section

namespace Cert.ReferenceIdeal.RefValue

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-! ## Two lines in turn, and the buffers a line leaves alone -/

/-- Running two lines of operations in turn is running their concatenation. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The one buffer an operation writes lies in any list of references that holds it. -/
private theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-! ## Stage A: the first argument padded -/

/-- The contents after stage A. -/
private def valA (V : Valuation τ sig (Elt F)) : Valuation τ sig (Elt F) := after stA V

/-- The buffers stage A writes: the index constant, the padding's intermediate values, and the padded image `main_v0`. -/
private abbrev stA_W : List (Ref sig .tc) :=
  [main_c, main_call0_v0, main_call0_v1, main_call0_v2, main_call0_v3, main_call0_v4, main_call0_v5,
   main_call0_v6, main_call0_v7, main_call0_v8, main_call0_v9, main_call0_v10, main_call0_v11, main_call0_v12,
   main_call0_v13, main_call0_v14, main_v0]

private theorem stA_writes :
    (stA : List (HloOp τ sig (Elt F))).Forall fun op => op.writes ⊆ (stA_W.map (Proc.devRef (τ := τ) .tc)).toFinset := by
  simp only [List.Forall]
  and_intros <;> exact sub_of_mem (by decide)

/-- A buffer stage A does not write keeps its contents through it. -/
private theorem valA_keep (V : Valuation τ sig (Elt F)) (r : Ref sig .tc) (h : r ∉ stA_W) :
    valA V (Proc.devRef .tc r) = V (Proc.devRef .tc r) :=
  after_of_writes_sub stA V stA_writes h

private theorem valA_arg0 (V : Valuation τ sig (Elt F)) :
    valA V (no_index (Proc.devRef .tc main_arg0)) = V (Proc.devRef .tc main_arg0) := valA_keep V main_arg0 (by decide)
private theorem valA_arg1 (V : Valuation τ sig (Elt F)) :
    valA V (no_index (Proc.devRef .tc main_arg1)) = V (Proc.devRef .tc main_arg1) := valA_keep V main_arg1 (by decide)

set_option maxRecDepth 8192 in
set_option maxHeartbeats 2000000 in
/-- After stage A `main_v0` holds the reflected padding of the first argument: each operation's result is its function
    of its operands' contents, and the composed term is `padV`'s own body (the typed references' transports are the
    identity, and the shape facts on the two sides are proofs of the same propositions). -/
private theorem valA_v0 (V : Valuation τ sig (Elt F)) :
    valA V (no_index (Proc.devRef .tc main_v0)) = Cert.Lbp.padV (V (Proc.devRef .tc main_arg0)) := by
  unfold valA
  simp only [stA]
  after_results
  simp only [TRef.ofBuf, TRef.toBuf, cast_eq]
  rfl

/-! ## Stage B: the first argument's scaled code -/

/-- The contents after stages A and B. -/
private def valB (V : Valuation τ sig (Elt F)) : Valuation τ sig (Elt F) := after stB (valA V)

/-- The buffers stage B writes: the weights and their spreads, the eight neighbours' slices, bits and terms, the running sums, and the scaled code `main_v51`. -/
private abbrev stB_W : List (Ref sig .tc) :=
  [main_cst, main_v1, main_v2, main_v3, main_v4, main_cst_0, main_v5, main_v6, main_v7, main_v8, main_v9,
   main_v10, main_cst_1, main_v11, main_v12, main_v13, main_v14, main_v15, main_v16, main_cst_2, main_v17,
   main_v18, main_v19, main_v20, main_v21, main_v22, main_cst_3, main_v23, main_v24, main_v25, main_v26,
   main_v27, main_v28, main_cst_4, main_v29, main_v30, main_v31, main_v32, main_v33, main_v34, main_cst_5,
   main_v35, main_v36, main_v37, main_v38, main_v39, main_v40, main_cst_6, main_v41, main_v42, main_v43,
   main_v44, main_v45, main_v46, main_cst_7, main_v47, main_v48, main_v49, main_cst_8, main_v50, main_v51]

private theorem stB_writes :
    (stB : List (HloOp τ sig (Elt F))).Forall fun op => op.writes ⊆ (stB_W.map (Proc.devRef (τ := τ) .tc)).toFinset := by
  simp only [List.Forall]
  and_intros <;> exact sub_of_mem (by decide)

/-- A buffer stage B does not write keeps its contents through it. -/
private theorem valB_keep (V : Valuation τ sig (Elt F)) (r : Ref sig .tc) (h : r ∉ stB_W) :
    valB V (Proc.devRef .tc r) = valA V (Proc.devRef .tc r) :=
  after_of_writes_sub stB _ stB_writes h

private theorem valB_arg0 (V : Valuation τ sig (Elt F)) :
    valB V (no_index (Proc.devRef .tc main_arg0)) = V (Proc.devRef .tc main_arg0) :=
  (valB_keep V main_arg0 (by decide)).trans (valA_arg0 V)
private theorem valB_arg1 (V : Valuation τ sig (Elt F)) :
    valB V (no_index (Proc.devRef .tc main_arg1)) = V (Proc.devRef .tc main_arg1) :=
  (valB_keep V main_arg1 (by decide)).trans (valA_arg1 V)

set_option maxRecDepth 8192 in
set_option maxHeartbeats 2000000 in
/-- After stage B `main_v51` holds the scaled pattern code of the first argument: the stage reads `main_v0` (the padded
    image, by stage A) and `main_arg0`, and its composed term is `lbpV`'s body with `codeV`, `termV`, `splatV` unfolded. -/
private theorem valB_v51 (V : Valuation τ sig (Elt F)) :
    valB V (no_index (Proc.devRef .tc main_v51)) = Cert.Lbp.lbpV (V (Proc.devRef .tc main_arg0)) := by
  unfold valB
  simp only [stB]
  after_results_simp
  simp only [valA_v0, valA_arg0]
  rfl

/-! ## Stage C: the second argument padded -/

/-- The contents after stages A to C. -/
private def valC (V : Valuation τ sig (Elt F)) : Valuation τ sig (Elt F) := after stC (valB V)

/-- The buffers stage C writes: the index constant, the padding's intermediate values, and the padded image `main_v52`. -/
private abbrev stC_W : List (Ref sig .tc) :=
  [main_c_9, main_call1_v0, main_call1_v1, main_call1_v2, main_call1_v3, main_call1_v4, main_call1_v5,
   main_call1_v6, main_call1_v7, main_call1_v8, main_call1_v9, main_call1_v10, main_call1_v11, main_call1_v12,
   main_call1_v13, main_call1_v14, main_v52]

private theorem stC_writes :
    (stC : List (HloOp τ sig (Elt F))).Forall fun op => op.writes ⊆ (stC_W.map (Proc.devRef (τ := τ) .tc)).toFinset := by
  simp only [List.Forall]
  and_intros <;> exact sub_of_mem (by decide)

/-- A buffer stage C does not write keeps its contents through it. -/
private theorem valC_keep (V : Valuation τ sig (Elt F)) (r : Ref sig .tc) (h : r ∉ stC_W) :
    valC V (Proc.devRef .tc r) = valB V (Proc.devRef .tc r) :=
  after_of_writes_sub stC _ stC_writes h

private theorem valC_arg0 (V : Valuation τ sig (Elt F)) :
    valC V (no_index (Proc.devRef .tc main_arg0)) = V (Proc.devRef .tc main_arg0) :=
  (valC_keep V main_arg0 (by decide)).trans (valB_arg0 V)
private theorem valC_arg1 (V : Valuation τ sig (Elt F)) :
    valC V (no_index (Proc.devRef .tc main_arg1)) = V (Proc.devRef .tc main_arg1) :=
  (valC_keep V main_arg1 (by decide)).trans (valB_arg1 V)
private theorem valC_v51 (V : Valuation τ sig (Elt F)) :
    valC V (no_index (Proc.devRef .tc main_v51)) = Cert.Lbp.lbpV (V (Proc.devRef .tc main_arg0)) :=
  (valC_keep V main_v51 (by decide)).trans (valB_v51 V)

set_option maxRecDepth 8192 in
set_option maxHeartbeats 2000000 in
/-- After stage C `main_v52` holds the reflected padding of the second argument (as stage A, over `main_arg1`, which the
    earlier stages left alone). -/
private theorem valC_v52 (V : Valuation τ sig (Elt F)) :
    valC V (no_index (Proc.devRef .tc main_v52)) = Cert.Lbp.padV (V (Proc.devRef .tc main_arg1)) := by
  unfold valC
  simp only [stC]
  after_results
  simp only [TRef.ofBuf, TRef.toBuf, cast_eq, valB_arg1]
  rfl

/-! ## Stage D: the second argument's scaled code -/

/-- The contents after stages A to D. -/
private def valD (V : Valuation τ sig (Elt F)) : Valuation τ sig (Elt F) := after stD (valC V)

/-- The buffers stage D writes: as stage B's, for the second argument, ending at the scaled code `main_v103`. -/
private abbrev stD_W : List (Ref sig .tc) :=
  [main_cst_10, main_v53, main_v54, main_v55, main_v56, main_cst_11, main_v57, main_v58, main_v59, main_v60,
   main_v61, main_v62, main_cst_12, main_v63, main_v64, main_v65, main_v66, main_v67, main_v68, main_cst_13,
   main_v69, main_v70, main_v71, main_v72, main_v73, main_v74, main_cst_14, main_v75, main_v76, main_v77,
   main_v78, main_v79, main_v80, main_cst_15, main_v81, main_v82, main_v83, main_v84, main_v85, main_v86,
   main_cst_16, main_v87, main_v88, main_v89, main_v90, main_v91, main_v92, main_cst_17, main_v93, main_v94,
   main_v95, main_v96, main_v97, main_v98, main_cst_18, main_v99, main_v100, main_v101, main_cst_19, main_v102,
   main_v103]

private theorem stD_writes :
    (stD : List (HloOp τ sig (Elt F))).Forall fun op => op.writes ⊆ (stD_W.map (Proc.devRef (τ := τ) .tc)).toFinset := by
  simp only [List.Forall]
  and_intros <;> exact sub_of_mem (by decide)

/-- A buffer stage D does not write keeps its contents through it. -/
private theorem valD_keep (V : Valuation τ sig (Elt F)) (r : Ref sig .tc) (h : r ∉ stD_W) :
    valD V (Proc.devRef .tc r) = valC V (Proc.devRef .tc r) :=
  after_of_writes_sub stD _ stD_writes h

private theorem valD_arg0 (V : Valuation τ sig (Elt F)) :
    valD V (no_index (Proc.devRef .tc main_arg0)) = V (Proc.devRef .tc main_arg0) :=
  (valD_keep V main_arg0 (by decide)).trans (valC_arg0 V)
private theorem valD_arg1 (V : Valuation τ sig (Elt F)) :
    valD V (no_index (Proc.devRef .tc main_arg1)) = V (Proc.devRef .tc main_arg1) :=
  (valD_keep V main_arg1 (by decide)).trans (valC_arg1 V)
private theorem valD_v51 (V : Valuation τ sig (Elt F)) :
    valD V (no_index (Proc.devRef .tc main_v51)) = Cert.Lbp.lbpV (V (Proc.devRef .tc main_arg0)) :=
  (valD_keep V main_v51 (by decide)).trans (valC_v51 V)

set_option maxRecDepth 8192 in
set_option maxHeartbeats 2000000 in
/-- After stage D `main_v103` holds the scaled pattern code of the second argument (as stage B, over `main_v52` and
    `main_arg1`). -/
private theorem valD_v103 (V : Valuation τ sig (Elt F)) :
    valD V (no_index (Proc.devRef .tc main_v103)) = Cert.Lbp.lbpV (V (Proc.devRef .tc main_arg1)) := by
  unfold valD
  simp only [stD]
  after_results_simp
  simp only [valC_v52, valC_arg1]
  rfl

/-! ## Stage E: the loss -/

/-- The contents after all five stages. -/
private def valE (V : Valuation τ sig (Elt F)) : Valuation τ sig (Elt F) := after stE (valD V)

/-- The buffers stage E writes: the difference, its absolute value, the zero the sum starts from, the sum, and its square root `main_v107`. -/
private abbrev stE_W : List (Ref sig .tc) :=
  [main_v104, main_v105, main_cst_20, main_v106, main_v107]

private theorem stE_writes :
    (stE : List (HloOp τ sig (Elt F))).Forall fun op => op.writes ⊆ (stE_W.map (Proc.devRef (τ := τ) .tc)).toFinset := by
  simp only [List.Forall]
  and_intros <;> exact sub_of_mem (by decide)

/-- A buffer stage E does not write keeps its contents through it. -/
private theorem valE_keep (V : Valuation τ sig (Elt F)) (r : Ref sig .tc) (h : r ∉ stE_W) :
    valE V (Proc.devRef .tc r) = valD V (Proc.devRef .tc r) :=
  after_of_writes_sub stE _ stE_writes h

private theorem valE_arg0 (V : Valuation τ sig (Elt F)) :
    valE V (no_index (Proc.devRef .tc main_arg0)) = V (Proc.devRef .tc main_arg0) :=
  (valE_keep V main_arg0 (by decide)).trans (valD_arg0 V)
private theorem valE_arg1 (V : Valuation τ sig (Elt F)) :
    valE V (no_index (Proc.devRef .tc main_arg1)) = V (Proc.devRef .tc main_arg1) :=
  (valE_keep V main_arg1 (by decide)).trans (valD_arg1 V)

set_option maxRecDepth 8192 in
/-- After stage E `main_v107` holds the loss: the square root of the sum, from zero, of the absolute differences of
    the two scaled codes (`main_v51` by stage B, kept through C and D; `main_v103` by stage D). -/
private theorem valE_v107 (V : Valuation τ sig (Elt F)) :
    valE V (no_index (Proc.devRef .tc main_v107))
      = Cert.Lbp.lossV (V (Proc.devRef .tc main_arg0)) (V (Proc.devRef .tc main_arg1)) := by
  unfold valE
  simp only [stE]
  after_results_simp
  simp only [valD_v51, valD_v103]
  rfl

/-! ## The five stages as one line -/

/-- The whole line's fold is the five stages' folds in turn. -/
private theorem after_all (V : Valuation τ sig (Elt F)) : after (stA ++ (stB ++ (stC ++ (stD ++ stE)))) V = valE V := by
  rw [after_app, after_app, after_app, after_app]
  rfl

theorem after_loss (V : Valuation τ sig (Elt F)) :
    after (stA ++ (stB ++ (stC ++ (stD ++ stE)))) V (Proc.devRef .tc main_v107)
      = Cert.Lbp.lossV (V (Proc.devRef .tc main_arg0)) (V (Proc.devRef .tc main_arg1)) := by
  rw [after_all]
  exact valE_v107 V

theorem after_arg0 (V : Valuation τ sig (Elt F)) :
    after (stA ++ (stB ++ (stC ++ (stD ++ stE)))) V (Proc.devRef .tc main_arg0) = V (Proc.devRef .tc main_arg0) := by
  rw [after_all]
  exact valE_arg0 V

theorem after_arg1 (V : Valuation τ sig (Elt F)) :
    after (stA ++ (stB ++ (stC ++ (stD ++ stE)))) V (Proc.devRef .tc main_arg1) = V (Proc.devRef .tc main_arg1) := by
  rw [after_all]
  exact valE_arg1 V

end Cert.ReferenceIdeal.RefValue

end
-- ==== Proof.KerDefs.lean ====
/-
  The kernel side's vocabulary: one grid point's contribution to the carried sum, as a function of the two staged
  blocks and of what the sum held before; and the sum after each point.

  A point's body reads, from each staged block B : f32[3,514,514], the centre tile B[:, 1:513, 1:513] and the eight
  neighbour tiles B[:, dy:dy+512, dx:dx+512]; from them the two pattern codes, their absolute difference scaled by
  c = f32(1/255), summed over lanes, rows and planes, and added to the carried value: `stepV`.  The first point
  starts from the zero the body itself stores; every later point from what the point before left: `accV`.
-/
import proofs.«130637_j39152921870850_1_alg».proof.Proof.Gen.KernelIdeal.Frame
import Idealize.ShloMosaic.Lib.Pipeline.Value

noncomputable section

namespace Cert.KernelIdeal.KerValue

open Idealize.ShloMosaic Idealize.ShloMosaic.TcCoe Idealize.SL.Sem
open Cert.KernelIdeal Cert.KernelIdeal.Gen

variable {F : FTy → Type} [FloatOps F]

/-- The 3x512x512 tile of a staged 3x514x514 block that starts at offset `off`. -/
abbrev tile (B : Vec F S3x514x514 .f32) (off : Fin 3 → Nat) (inb : ∀ a, off a + S3x512x512.size a ≤ S3x514x514.size a) :
    Vec F S3x512x512 .f32 :=
  View.ld B (Rect.unit (s := S3x514x514) off S3x512x512.size inb)

/-- One point's body as a value: the carried sum `acc` plus the point's total of |code(B0) - code(B1)| * c, in the
    body's own operations (the payload names are the skeleton's). -/
def stepV (B0 B1 : Vec F S3x514x514 .f32) (acc : Vec F S1x1x1 .f32) : Vec F S1x1x1 .f32 :=
  let v3 := tile B0 ![0, 1, 1] inb_S3x514x514_S3x512x512_0_1_1
  let v5 := tile B1 ![0, 1, 1] inb_S3x514x514_S3x512x512_0_1_1
  let v9 := tile B0 ![0, 0, 0] inb_S3x514x514_S3x512x512_0_0_0
  let v11 := tile B1 ![0, 0, 0] inb_S3x514x514_S3x512x512_0_0_0
  let v25 := tile B0 ![0, 0, 1] inb_S3x514x514_S3x512x512_0_0_1
  let v27 := tile B1 ![0, 0, 1] inb_S3x514x514_S3x512x512_0_0_1
  let v41 := tile B0 ![0, 0, 2] inb_S3x514x514_S3x512x512_0_0_2
  let v43 := tile B1 ![0, 0, 2] inb_S3x514x514_S3x512x512_0_0_2
  let v57 := tile B0 ![0, 1, 2] inb_S3x514x514_S3x512x512_0_1_2
  let v59 := tile B1 ![0, 1, 2] inb_S3x514x514_S3x512x512_0_1_2
  let v73 := tile B0 ![0, 2, 2] inb_S3x514x514_S3x512x512_0_2_2
  let v75 := tile B1 ![0, 2, 2] inb_S3x514x514_S3x512x512_0_2_2
  let v89 := tile B0 ![0, 2, 1] inb_S3x514x514_S3x512x512_0_2_1
  let v91 := tile B1 ![0, 2, 1] inb_S3x514x514_S3x512x512_0_2_1
  let v105 := tile B0 ![0, 2, 0] inb_S3x514x514_S3x512x512_0_2_0
  let v107 := tile B1 ![0, 2, 0] inb_S3x514x514_S3x512x512_0_2_0
  let v121 := tile B0 ![0, 1, 0] inb_S3x514x514_S3x512x512_0_1_0
  let v123 := tile B1 ![0, 1, 0] inb_S3x514x514_S3x512x512_0_1_0
  let v4 := k0_pay3 v3
  let v6 := k0_pay4 v5
  let v18 := k0_pay5 v3 v9
  let v24 := k0_pay6 v5 v11
  let v28 := k0_pay7 v27
  let v31 := k0_pay8 v3 v25
  let v32 := k0_pay9 (F := F)
  let v66 := k0_pay10 v4 v18 v31 v32 v41 v57
  let v72 := k0_pay11 v6 v24 v28 v43 v59
  let v98 := k0_pay12 v4 v66 v73 v89
  let v104 := k0_pay13 v6 v72 v75 v91
  let v108 := k0_pay14 v107
  let v111 := k0_pay15 v4 v105
  let v112 := k0_pay16 (F := F)
  k0_pay17 v4 v6 v98 v104 v108 v111 v112 v121 v123 acc

variable (m : (ℓ : Loc nD τ sig) → Buf (Elt F) ℓ)

/-- The two input windows' blocks at a point, at their literal type. -/
abbrev blk0 (c : Dev nD) (t : Fin cfg0.N) : Vec F S3x514x514 .f32 := iblk m c 0 t
abbrev blk1 (c : Dev nD) (t : Fin cfg0.N) : Vec F S3x514x514 .f32 := iblk m c 1 t

/-- The carried sum after point `n`: the first point steps from the stored zero, each later one from the point before. -/
def accV (c : Dev nD) : (n : ℕ) → n < cfg0.N → Vec F S1x1x1 .f32
  | 0, h => stepV (blk0 m c ⟨0, h⟩) (blk1 m c ⟨0, h⟩) (k0_pay2 (F := F))
  | n + 1, h => stepV (blk0 m c ⟨n + 1, h⟩) (blk1 m c ⟨n + 1, h⟩) (accV c n (Nat.lt_of_succ_lt h))

theorem lastLt : 15 < cfg0.N := by rw [show cfg0.N = 16 from N_0]; decide

/-- What the kernel's program returns: the square root of the sum after the last point, as a scalar. -/
def resultV (c : Dev nD) : FVec F S_ .f32 :=
  shapeCast S_ (k0_pay1 (accV m c 15 lastLt)) shapeCasts_S1x1x1_S_

end Cert.KernelIdeal.KerValue

end
-- ==== Proof.KerRun.lean ====
/-
  The kernel's program runs, and what it returns is named: the square root of the sum carried through the sixteen
  grid points (`resultV`), the two arguments unchanged.
-/
import proofs.«130637_j39152921870850_1_alg».proof.Proof.KerDefs
import Idealize.ShloMosaic.Lib.Tactic

noncomputable section

namespace Cert.KernelIdeal.KerValue

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## What one point's body leaves, case by case

The carried sum lives in a one-element buffer, read and written through the rectangle at offsets (0, 0, 0) of its own
sizes: a load through it reads the contents, a store through it leaves its payload whatever was there. -/

private theorem hz3 : (![0, 0, 0] : Fin 3 → Nat) = fun _ => 0 := funext fun a => by fin_cases a <;> rfl

/-- The first point: the body stores the zero, reads it back, and leaves the zero plus the point's total. -/
private theorem sout_A (c : Dev nD) (i : grid0.Coords) (a1 : Memref sig .tc .vmem S3x514x514 .f32) (h1 : a1.IsWhole) (a2 : Memref sig .tc .vmem S3x514x514 .f32) (h2 : a2.IsWhole) (a3 : Memref sig .tc .vmem S1x1x1 .f32) (h3 : a3.IsWhole) (a4 : Memref sig .tc .vmem S1x1x1 .f32) (h4 : a4.IsWhole) (hc0 : cond0_0 i) (hc1 : ¬cond0_1 i)
    (x0 x1 : Vec F S3x514x514 .f32) :
    sout0_A_0 c i a1 h1 a2 h2 a3 h3 a4 h4 hc0 hc1 x0 x1 = stepV x0 x1 (k0_pay2 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1x1) hz3, View.readCov_unit_zero (S := S1x1x1) _ hz3]
  simp only [View.readAt_eq_ld, h1.read_unread, h2.read_unread]
  rfl

/-- A middle point: the body leaves what the point before left plus the point's total. -/
private theorem sout_B (c : Dev nD) (i : grid0.Coords) (a1 : Memref sig .tc .vmem S3x514x514 .f32) (h1 : a1.IsWhole) (a2 : Memref sig .tc .vmem S3x514x514 .f32) (h2 : a2.IsWhole) (a3 : Memref sig .tc .vmem S1x1x1 .f32) (h3 : a3.IsWhole) (a4 : Memref sig .tc .vmem S1x1x1 .f32) (h4 : a4.IsWhole) (hc0 : ¬cond0_0 i) (hc1 : ¬cond0_1 i)
    (x0 x1 : Vec F S3x514x514 .f32) (xs0 : Vec F S1x1x1 .f32) :
    sout0_B_0 c i a1 h1 a2 h2 a3 h3 a4 h4 hc0 hc1 x0 x1 xs0 = stepV x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz3]
  simp only [View.readAt_eq_ld, h1.read_unread, h2.read_unread, h4.read_unread, View.ld_unit_zero (S := S1x1x1) hz3]
  rfl

/-- The last point leaves the same in the carried sum, -/
private theorem sout_C (c : Dev nD) (i : grid0.Coords) (a1 : Memref sig .tc .vmem S3x514x514 .f32) (h1 : a1.IsWhole) (a2 : Memref sig .tc .vmem S3x514x514 .f32) (h2 : a2.IsWhole) (a3 : Memref sig .tc .vmem S1x1x1 .f32) (h3 : a3.IsWhole) (a4 : Memref sig .tc .vmem S1x1x1 .f32) (h4 : a4.IsWhole) (hc0 : ¬cond0_0 i) (hc1 : cond0_1 i)
    (x0 x1 : Vec F S3x514x514 .f32) (xs0 : Vec F S1x1x1 .f32) :
    sout0_C_0 c i a1 h1 a2 h2 a3 h3 a4 h4 hc0 hc1 x0 x1 xs0 = stepV x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz3]
  simp only [View.readAt_eq_ld, h1.read_unread, h2.read_unread, h4.read_unread, View.ld_unit_zero (S := S1x1x1) hz3]
  rfl

/-- and in the output block the square root of that sum, which it reads back from the carried buffer. -/
private theorem out_C (c : Dev nD) (i : grid0.Coords) (a1 : Memref sig .tc .vmem S3x514x514 .f32) (h1 : a1.IsWhole) (a2 : Memref sig .tc .vmem S3x514x514 .f32) (h2 : a2.IsWhole) (a3 : Memref sig .tc .vmem S1x1x1 .f32) (h3 : a3.IsWhole) (a4 : Memref sig .tc .vmem S1x1x1 .f32) (h4 : a4.IsWhole) (hc0 : ¬cond0_0 i) (hc1 : cond0_1 i)
    (x0 x1 : Vec F S3x514x514 .f32) (xs0 : Vec F S1x1x1 .f32) :
    out0_C_2 c i a1 h1 a2 h2 a3 h3 a4 h4 hc0 hc1 x0 x1 xs0 = k0_pay1 (stepV x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz3]
  simp only [View.readCov_unit_zero (S := S1x1x1) _ hz3, View.readAt_eq_ld, h1.read_unread, h2.read_unread,
    h4.read_unread, View.ld_unit_zero (S := S1x1x1) hz3]
  rfl

/-! ## The carried sum after each point -/

/-- The carried buffer after point `n` holds `accV … n`: by induction on the point. Point 0 is the first case; a
    later point is the last case when `n + 1 ≡ 15 (mod 16)` and a middle case otherwise, and both step from what the
    point before left, which is the induction hypothesis. -/
private theorem scratch_eq (c : Dev nD) : ∀ (n : ℕ) (h : n < cfg0.N), (outsAt0 m c n h).2 = accV m c n h
  | 0, h => by
    have e0 : (⟨0, h⟩ : Fin cfg0.N).val % 16 = 0 := rfl
    have e1 : ¬(⟨0, h⟩ : Fin cfg0.N).val % 16 = 15 := by dsimp only; omega
    rw [outsAt0_A m c ⟨0, h⟩ e0 e1]
    dsimp only
    exact sout_A (F := F) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) ((hcond0_0 ⟨0, h⟩).mpr e0)
      (fun hh => e1 ((hcond0_1 ⟨0, h⟩).mp hh)) (iblk m c 0 ⟨0, h⟩) (iblk m c 1 ⟨0, h⟩)
  | n + 1, h => by
    have hN : cfg0.N = 16 := N_0
    have e0 : ¬(⟨n + 1, h⟩ : Fin cfg0.N).val % 16 = 0 := by dsimp only; omega
    by_cases e1 : (⟨n + 1, h⟩ : Fin cfg0.N).val % 16 = 15
    · rw [outsAt0_C m c ⟨n + 1, h⟩ e0 e1]
      dsimp only
      refine (sout_C (F := F) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _)
        (fun hh => e0 ((hcond0_0 ⟨n + 1, h⟩).mp hh)) ((hcond0_1 ⟨n + 1, h⟩).mpr e1)
        (iblk m c 0 ⟨n + 1, h⟩) (iblk m c 1 ⟨n + 1, h⟩) (outsAt0 m c n (Nat.lt_of_succ_lt h)).2).trans ?_
      rw [scratch_eq c n (Nat.lt_of_succ_lt h)]
      rfl
    · rw [outsAt0_B m c ⟨n + 1, h⟩ e0 e1]
      dsimp only
      refine (sout_B (F := F) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _)
        (fun hh => e0 ((hcond0_0 ⟨n + 1, h⟩).mp hh)) (fun hh => e1 ((hcond0_1 ⟨n + 1, h⟩).mp hh))
        (iblk m c 0 ⟨n + 1, h⟩) (iblk m c 1 ⟨n + 1, h⟩) (outsAt0 m c n (Nat.lt_of_succ_lt h)).2).trans ?_
      rw [scratch_eq c n (Nat.lt_of_succ_lt h)]
      rfl

/-- After the last point the output block holds the square root of the sum after that point (the last case, stepping
    from the sum after point 14). -/
private theorem out_last (c : Dev nD) : (outsAt0 m c 15 lastLt).1 = k0_pay1 (accV m c 15 lastLt) := by
  have e0 : ¬(⟨15, lastLt⟩ : Fin cfg0.N).val % 16 = 0 := by dsimp only; omega
  have e1 : (⟨15, lastLt⟩ : Fin cfg0.N).val % 16 = 15 := rfl
  rw [outsAt0_C m c ⟨15, lastLt⟩ e0 e1]
  dsimp only
  refine (out_C (F := F) c (grid0.coords ⟨15, lastLt⟩) (ms0_0 ⟨15, lastLt⟩) (hs0_0 ⟨15, lastLt⟩) (ms0_1 ⟨15, lastLt⟩)
    (hs0_1 ⟨15, lastLt⟩) (ms0_2 ⟨15, lastLt⟩) (hs0_2 ⟨15, lastLt⟩) scM0_0 (Memref.isWhole_whole _)
    (fun hh => e0 ((hcond0_0 ⟨15, lastLt⟩).mp hh)) ((hcond0_1 ⟨15, lastLt⟩).mpr e1)
    (iblk m c 0 ⟨15, lastLt⟩) (iblk m c 1 ⟨15, lastLt⟩) (outsAt0 m c 14 (Nat.lt_of_succ_lt lastLt)).2).trans ?_
  rw [scratch_eq m c 14 (Nat.lt_of_succ_lt lastLt)]
  rfl

/-! ## The output array after the region -/

/-- What the one-element output array ends holding: the square root of the sum after the last point. -/
private abbrev resArr (c : Dev nD) : Buf (Elt F) ((c : Thread nD τ).loc main_v4) := k0_pay1 (accV m c 15 lastLt)

/-- The output is written back once, after point 15, and what is written is that value: its block (0, 0, 0) of sizes
    (1, 1, 1) read through zero offsets is the whole array. -/
private theorem flushed_eq (c : Dev nD) (t : Fin cfg0.N) (hf : (cfg0.win 2).flush t = true) :
    (dats m 0 c).flushed 2 t = ((cfg0.win 2).blk t).view.read (Elt F) (resArr m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2]
  show (cfg0.win 2).cut (grid0.coords t0_15) (outsAt0 m c 15 lastLt).1 = _
  rw [out_last]
  have hz' : (fun a => win0_2.index t0_15 a * main_v4.ty.shape.size a) = fun _ => 0 :=
    funext fun a => by fin_cases a <;> decide
  exact (Memref.read_access_unit_zero (Elt F) main_v4 hz' (fun a => by rw [congrFun hz' a]; simp) (resArr m c)).symm

/-- That one write-back covers the array (every index is (0, 0, 0)), so the array ends holding that value. -/
private theorem final (c : Dev nD) : (dats m 0 c).arrAt 2 cfg0.N = resArr m c :=
  (dats m 0 c).arrAt_eq_of_cover 2 (resArr m c) (flushed_eq m c) fun i =>
    ⟨t0_15, (flush0_2 t0_15).mpr rfl, by
      show i ∈ ((View.whole main_v4).slice (win0_2.rect t0_15)).set
      rw [View.set_slice_whole, Rect.mem_set_unit]
      intro a
      have h0 : (i 0 : Nat) < 1 := (i 0).isLt
      have h1 : (i 1 : Nat) < 1 := (i 1).isLt
      have h2 : (i 2 : Nat) < 1 := (i 2).isLt
      match a with
      | ⟨0, _⟩ =>
        show win0_2.index t0_15 0 * win0_2.size 0 ≤ (i 0 : Nat)
          ∧ (i 0 : Nat) < win0_2.index t0_15 0 * win0_2.size 0 + win0_2.xsize (grid0.coords t0_15) 0
        rw [show win0_2.index t0_15 0 * win0_2.size 0 = 0 from by decide +kernel,
          show win0_2.xsize (grid0.coords t0_15) 0 = 1 from by decide +kernel]; omega
      | ⟨1, _⟩ =>
        show win0_2.index t0_15 1 * win0_2.size 1 ≤ (i 1 : Nat)
          ∧ (i 1 : Nat) < win0_2.index t0_15 1 * win0_2.size 1 + win0_2.xsize (grid0.coords t0_15) 1
        rw [show win0_2.index t0_15 1 * win0_2.size 1 = 0 from by decide +kernel,
          show win0_2.xsize (grid0.coords t0_15) 1 = 1 from by decide +kernel]; omega
      | ⟨2, _⟩ =>
        show win0_2.index t0_15 2 * win0_2.size 2 ≤ (i 2 : Nat)
          ∧ (i 2 : Nat) < win0_2.index t0_15 2 * win0_2.size 2 + win0_2.xsize (grid0.coords t0_15) 2
        rw [show win0_2.index t0_15 2 * win0_2.size 2 = 0 from by decide +kernel,
          show win0_2.xsize (grid0.coords t0_15) 2 = 1 from by decide +kernel]; omega⟩

/-! ## The host reshape after the region, and the run -/

/-- The reshape [1,1,1] → [] after the region reads the output array, which is the third window's array, and turns
    its one element into the scalar result. -/
private theorem tail_v5 (c : Dev nD) :
    Pipeline.afterTail₀ cfgs (dats m) 0 (V0 m) [hostOps1] c main_v5 = resultV m c := by
  unfold Pipeline.afterTail₀
  show StableHlo.after hostOps1 _ (Proc.devRef .tc main_v5) = _
  after_results
  have e : Pipeline.withArrays (cfgs 0).spec c (V0 m c) (fun w => (dats m 0 c).arrAt w (cfgs 0).N)
      (Proc.devRef .tc main_v4) = resArr m c :=
    (Pipeline.withArrays_arr spec0 launch0.win.arr_inj c _ _ 2).trans (final m c)
  rw [e]
  rfl

theorem run : θ_run defs (onTc (τ := τ) (main (F := F))) ⟨m, fun _ => 0, ρ⟩ fun r => ∀ c : Dev nD,
      r.2.mem ((c.tc : Thread nD τ).loc main_v5) = resultV m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_v5 m c),
     ((h c).2 main_arg0 (Pipeline.mem_restRefs_of main_arg0 (by decide) (by decide))).trans
       (W_main_arg0 m (dats m) c),
     ((h c).2 main_arg1 (Pipeline.mem_restRefs_of main_arg1 (by decide) (by decide))).trans
       (W_main_arg1 m (dats m) c)⟩)
    (run_main m ρ)

end Cert.KernelIdeal.KerValue

end
-- ==== Proof.IdxSpec.lean ====
/-
  The same mathematics one element at a time, over the extended reals.

  `bit a b` is 1 when a >= b and 0 otherwise; `code8` adds the eight weighted bits of a pixel's neighbours from
  zero in neighbour order; `codeAt` reads the neighbours of pixel (b, c, y, x) out of a padded batch, `codeB` out of
  a staged block of three padded planes.  `absE` is the absolute value as both programs compute it, max a (-a).
-/
import proofs.«130637_j39152921870850_1_alg».proof.Proof.Spec

noncomputable section

namespace Cert.Lbp

open Idealize.ShloMosaic Idealize.ShloMosaic.ValueIdx

abbrev SBlk : Shape := ⟨3, ![3, 514, 514]⟩
abbrev SPlanes : Shape := ⟨3, ![48, 514, 514]⟩
abbrev SOne : Shape := ⟨3, ![1, 1, 1]⟩

/-- The zero word and the scale c = f32(1/255), as extended reals. -/
abbrev zW : EReal := Ideal.ofBits .f32 0x00000000#32
abbrev cW : EReal := Ideal.ofBits .f32 0x3B808081#32

/-- 1 when `a >= b`, else 0. -/
def bit (a b : EReal) : EReal := (((Ideal.cmp .oge a b).toNat : ℝ) : EReal)

/-- The absolute value both programs use. -/
def absE (a : EReal) : EReal := max a (-a)

/-- A pixel's pattern code from its centre value and its eight neighbours in neighbour order. -/
def code8 (ctr n0 n1 n2 n3 n4 n5 n6 n7 : EReal) : EReal :=
  zW + Ideal.ofBits .f32 0x3F800000#32 * bit n0 ctr + Ideal.ofBits .f32 0x40000000#32 * bit n1 ctr
    + Ideal.ofBits .f32 0x40800000#32 * bit n2 ctr + Ideal.ofBits .f32 0x41000000#32 * bit n3 ctr
    + Ideal.ofBits .f32 0x41800000#32 * bit n4 ctr + Ideal.ofBits .f32 0x42000000#32 * bit n5 ctr
    + Ideal.ofBits .f32 0x42800000#32 * bit n6 ctr + Ideal.ofBits .f32 0x43000000#32 * bit n7 ctr

/-- Entry (y + dy, x + dx) of plane (b, c) of a padded batch. -/
abbrev pidx (b : Fin 16) (c : Fin 3) (y x : Fin 512) (dy dx : Fin 3) : SPad.Idx :=
  ix4 b c (⟨y.val + dy.val, by omega⟩ : Fin 514) (⟨x.val + dx.val, by omega⟩ : Fin 514)

/-- Entry (y + dy, x + dx) of plane p of a staged block. -/
abbrev bidx (p : Fin 3) (y x : Fin 512) (dy dx : Fin 3) : SBlk.Idx :=
  ix3 p (⟨y.val + dy.val, by omega⟩ : Fin 514) (⟨x.val + dx.val, by omega⟩ : Fin 514)

/-- The code of pixel (b, c, y, x) with centre value `ctr`, its neighbours read out of the padded batch `P`. -/
def codeAt (P : SPad.Idx → EReal) (ctr : EReal) (b : Fin 16) (c : Fin 3) (y x : Fin 512) : EReal :=
  code8 ctr (P (pidx b c y x 0 0)) (P (pidx b c y x 0 1)) (P (pidx b c y x 0 2)) (P (pidx b c y x 1 2))
    (P (pidx b c y x 2 2)) (P (pidx b c y x 2 1)) (P (pidx b c y x 2 0)) (P (pidx b c y x 1 0))

/-- The code of pixel (p, y, x) of a staged block of padded planes: the centre is the block's entry (y + 1, x + 1). -/
def codeB (B : SBlk.Idx → EReal) (p : Fin 3) (y x : Fin 512) : EReal :=
  code8 (B (bidx p y x 1 1)) (B (bidx p y x 0 0)) (B (bidx p y x 0 1)) (B (bidx p y x 0 2)) (B (bidx p y x 1 2))
    (B (bidx p y x 2 2)) (B (bidx p y x 2 1)) (B (bidx p y x 2 0)) (B (bidx p y x 1 0))

/-- One grid point's total: over the three planes, the rows and the lanes, |code(B0) - code(B1)| * c. -/
def blockSum (B0 B1 : SBlk.Idx → EReal) : EReal :=
  ∑ p : Fin 3, ∑ y : Fin 512, ∑ x : Fin 512, absE (codeB B0 p y x - codeB B1 p y x) * cW

/-- One pixel's term of the reference's sum: |code(pad x, x) * c - code(pad y, y) * c| at index i. -/
def pixelTerm (X Y : SImg.Idx → EReal) (i : SImg.Idx) : EReal :=
  absE (codeAt (padV (F := Ideal) X) (X i) (i 0) (i 1) (i 2) (i 3) * cW
    - codeAt (padV (F := Ideal) Y) (Y i) (i 0) (i 1) (i 2) (i 3) * cW)

end Cert.Lbp

end
-- ==== Proof.KerEntry.lean ====
/-
  What the region finds in its two input arrays, and what a staged block holds: the host operations before the
  region pad each argument and fold the batch and channel axes into one axis of 48 planes, so plane 3 t + p of the
  array of window w is plane (t, p) of the padded argument w, and the block of grid point t is planes 3 t, 3 t + 1,
  3 t + 2.
-/
import proofs.«130637_j39152921870850_1_alg».proof.Proof.KerDefs
import proofs.«130637_j39152921870850_1_alg».proof.Proof.IdxSpec
import Idealize.ShloMosaic.Lib.StableHlo.Run
import Idealize.ShloMosaic.Lib.Pipeline.Value

noncomputable section

namespace Cert.KernelIdeal.KerValue

open Idealize.ShloMosaic Idealize.ShloMosaic.TcCoe Idealize.SL.Sem Idealize.ShloMosaic.ValueIdx
open Idealize.ShloMosaic.StableHlo
open Cert.KernelIdeal Cert.KernelIdeal.Gen

variable {F : FTy → Type} [FloatOps F]
variable (m : (ℓ : Loc nD τ sig) → Buf (Elt F) ℓ)

set_option maxRecDepth 8192 in
/-- The first window's array at the region's entry: the padded first argument, its two leading axes folded. -/
theorem entry0 (c : Dev nD) :
    (V m c main_v1 : FVec F S48x514x514 .f32)
      = shapeCast S48x514x514 (Cert.Lbp.padV (m ((c : Thread nD τ).loc main_arg0))) shapeCasts_S16x3x514x514_S48x514x514 := by
  dsimp only [Gen.V, Gen.V0]
  simp only [hostOps0, hostOps0_1, hostOps0_2, hostOps0_3, hostOps0_4, List.flatten_cons, List.flatten_nil,
    List.append_nil, List.cons_append, List.nil_append]
  after_results
  simp only [TRef.ofBuf, TRef.toBuf, cast_eq]
  rfl

set_option maxRecDepth 8192 in
set_option maxHeartbeats 4000000 in
/-- The second window's array at the region's entry: the padded second argument, folded the same way. -/
theorem entry1 (c : Dev nD) :
    (V m c main_v3 : FVec F S48x514x514 .f32)
      = shapeCast S48x514x514 (Cert.Lbp.padV (m ((c : Thread nD τ).loc main_arg1))) shapeCasts_S16x3x514x514_S48x514x514 := by
  dsimp only [Gen.V, Gen.V0]
  simp only [hostOps0, hostOps0_1, hostOps0_2, hostOps0_3, hostOps0_4, List.flatten_cons, List.flatten_nil,
    List.append_nil, List.cons_append, List.nil_append]
  after_results
  simp only [TRef.ofBuf, TRef.toBuf, cast_eq]
  rfl

/-- Both input windows move one block of three planes per grid point along the plane axis and stay at the origin
    of the two trailing axes. -/
theorem idx_facts0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx_facts1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The grid point as a batch index. -/
abbrev bOf (t : Fin cfg0.N) : Fin 16 := ⟨t.val, lt_of_lt_of_eq t.isLt (show cfg0.N = 16 from N_0)⟩

/-- Entry (p, y, x) of the first window's block at point t is entry (t, p, y, x) of the padded first argument. -/
theorem blk0_apply (c : Dev nD) (t : Fin cfg0.N) (p : Fin 3) (y x : Fin 514) :
    blk0 m c t (ix3 p y x) = Cert.Lbp.padV (m ((c : Thread nD τ).loc main_arg0)) (ix4 (bOf t) p y x) := by
  show iblk m c 0 t (ix3 p y x) = _
  unfold iblk
  rw [View.read_apply]
  show V m c main_v1 _ = _
  rw [entry0]
  refine shapeCast_apply _ _ _ (ix4 (bOf t) p y x) ?_
  rw [Shape.rowMajor_val_four, Shape.rowMajor_val_three]
  have h0 : (((cfg0.win 0).blk t).view.emb (ix3 p y x) 0).val = win0_0.index t 0 * 3 + 1 * p.val := rfl
  have h1 : (((cfg0.win 0).blk t).view.emb (ix3 p y x) 1).val = win0_0.index t 1 * 514 + 1 * y.val := rfl
  have h2 : (((cfg0.win 0).blk t).view.emb (ix3 p y x) 2).val = win0_0.index t 2 * 514 + 1 * x.val := rfl
  rw [h0, h1, h2, (idx_facts0 t).1, (idx_facts0 t).2.1, (idx_facts0 t).2.2]
  show ((t.val * 3 + p.val) * 514 + y.val) * 514 + x.val
    = ((t.val * 3 + 1 * p.val) * 514 + (0 * 514 + 1 * y.val)) * 514 + (0 * 514 + 1 * x.val)
  omega

/-- The same for the second window and the second argument. -/
theorem blk1_apply (c : Dev nD) (t : Fin cfg0.N) (p : Fin 3) (y x : Fin 514) :
    blk1 m c t (ix3 p y x) = Cert.Lbp.padV (m ((c : Thread nD τ).loc main_arg1)) (ix4 (bOf t) p y x) := by
  show iblk m c 1 t (ix3 p y x) = _
  unfold iblk
  rw [View.read_apply]
  show V m c main_v3 _ = _
  rw [entry1]
  refine shapeCast_apply _ _ _ (ix4 (bOf t) p y x) ?_
  rw [Shape.rowMajor_val_four, Shape.rowMajor_val_three]
  have h0 : (((cfg0.win 1).blk t).view.emb (ix3 p y x) 0).val = win0_1.index t 0 * 3 + 1 * p.val := rfl
  have h1 : (((cfg0.win 1).blk t).view.emb (ix3 p y x) 1).val = win0_1.index t 1 * 514 + 1 * y.val := rfl
  have h2 : (((cfg0.win 1).blk t).view.emb (ix3 p y x) 2).val = win0_1.index t 2 * 514 + 1 * x.val := rfl
  rw [h0, h1, h2, (idx_facts1 t).1, (idx_facts1 t).2.1, (idx_facts1 t).2.2]
  show ((t.val * 3 + p.val) * 514 + y.val) * 514 + x.val
    = ((t.val * 3 + 1 * p.val) * 514 + (0 * 514 + 1 * y.val)) * 514 + (0 * 514 + 1 * x.val)
  omega

end Cert.KernelIdeal.KerValue

end
-- ==== Proof.KerStep.lean ====
/-
  One grid point's body read at its one output element, over the extended reals: the carried value plus the
  point's total of |code(B0) - code(B1)| * c over the three planes, 512 rows and 512 lanes of the staged blocks.
-/
import proofs.«130637_j39152921870850_1_alg».proof.Proof.KerDefs
import proofs.«130637_j39152921870850_1_alg».proof.Proof.IdxSpec
import Idealize.ShloMosaic.Lib.ValueLayout
import Idealize.ShloMosaic.PureOps.Ideal.Laws

noncomputable section

namespace Cert.KernelIdeal.KerValue

open Idealize.ShloMosaic Idealize.ShloMosaic.ValueIdx
open Cert.KernelIdeal Cert.KernelIdeal.Gen
open Cert.Lbp

/-- A one-bit word widened to 32 bits and read as a signed integer is the bit as a natural number. -/
private theorem toInt_setWidth_bit (b : BitVec 1) : ((b.setWidth 32).toInt : ℝ) = (b.toNat : ℝ) := by
  rcases BitVec.eq_zero_or_eq_one b with rfl | rfl
  · norm_num
  · norm_num

/-- A comparison `u >= c`, widened and converted to a real, read at an index, is `bit` of the two entries. -/
private theorem sbit_apply {s : Shape} (u c : FVec Ideal s .f32) (h : 1 < 32) (i : s.Idx) :
    (sitofp .f32 (extui 32 (cmpf .oge u c) h) : FVec Ideal s .f32) i = bit (u i) (c i) := by
  show (((((Ideal.cmp .oge (u i) (c i)).setWidth 32).toInt : ℝ)) : EReal) = (((Ideal.cmp .oge (u i) (c i)).toNat : ℝ) : EReal)
  rw [toInt_setWidth_bit]

/-- The absolute value at an index is the larger of the entry and its negation. -/
private theorem absf_apply {s : Shape} (a : FVec Ideal s .f32) (i : s.Idx) : absf a i = absE (a i) := rfl

/-- The tile of a staged block that starts at row offset `dy` and lane offset `dx`, read at (p, y, x), is the
    block's entry (p, y + dy, x + dx). -/
private theorem tile_apply (B : FVec Ideal S3x514x514 .f32) (dy dx : Fin 3)
    (inb : ∀ a, (![0, dy.val, dx.val] : Fin 3 → Nat) a + S3x512x512.size a ≤ S3x514x514.size a)
    (p : Fin 3) (y x : Fin 512) :
    tile (F := Ideal) B ![0, dy.val, dx.val] inb (ix3 p y x) = B (bidx p y x dy dx) := by
  show B _ = B _
  refine congrArg B (funext fun a => Fin.ext ?_)
  match a with
  | ⟨0, _⟩ => show 0 + 1 * p.val = p.val; omega
  | ⟨1, _⟩ => show dy.val + 1 * y.val = y.val + dy.val; omega
  | ⟨2, _⟩ => show dx.val + 1 * x.val = x.val + dx.val; omega

/-- A cast that adds a trailing unit axis reads, at (i, j, u), the operand at (i, j). -/
private theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- The sum over the lanes: at (p, y), the sum over x of the entries (p, y, x). -/
private theorem red_lanes (w : FVec Ideal S3x512x512 .f32) (h : S3x512x512.Reduces [2] S3x512) (hφ : FKind.Formats .f32)
    (hacc : (0x00000000#32 : BitVec 32) = FKind.add.neutral .f32 hφ) (p : Fin 3) (y : Fin 512) :
    multiReduction (F := Ideal) .add [2] S3x512 w 0x00000000#32 h hφ hacc (ix2 p y) = ∑ x : Fin 512, w (ix3 p y x) := by
  refine (Ideal.multiReduction_add_single w 0x00000000#32 h hφ hacc (ix2 p y)).trans ?_
  refine Finset.sum_congr rfl fun x _ => congrArg w (funext fun a => Fin.ext ?_)
  match a with
  | ⟨0, _⟩ => rfl
  | ⟨1, _⟩ => rfl
  | ⟨2, _⟩ => rfl

/-- The sum over the rows: at (p, u), the sum over y of the entries (p, y, u). -/
private theorem red_rows (w : FVec Ideal S3x512x1 .f32) (h : S3x512x1.Reduces [1] S3x1) (hφ : FKind.Formats .f32)
    (hacc : (0x00000000#32 : BitVec 32) = FKind.add.neutral .f32 hφ) (p : Fin 3) (u : Fin 1) :
    multiReduction (F := Ideal) .add [1] S3x1 w 0x00000000#32 h hφ hacc (ix2 p u) = ∑ y : Fin 512, w (ix3 p y u) := by
  refine (Ideal.multiReduction_add_single w 0x00000000#32 h hφ hacc (ix2 p u)).trans ?_
  refine Finset.sum_congr rfl fun y _ => congrArg w (funext fun a => Fin.ext ?_)
  match a with
  | ⟨0, _⟩ => rfl
  | ⟨1, _⟩ => rfl
  | ⟨2, _⟩ => rfl

/-- The sum over the planes: at (u, v), the sum over p of the entries (p, u, v). -/
private theorem red_planes (w : FVec Ideal S3x1x1 .f32) (h : S3x1x1.Reduces [0] S1x1) (hφ : FKind.Formats .f32)
    (hacc : (0x00000000#32 : BitVec 32) = FKind.add.neutral .f32 hφ) (u v : Fin 1) :
    multiReduction (F := Ideal) .add [0] S1x1 w 0x00000000#32 h hφ hacc (ix2 u v) = ∑ p : Fin 3, w (ix3 p u v) := by
  refine (Ideal.multiReduction_add_single w 0x00000000#32 h hφ hacc (ix2 u v)).trans ?_
  refine Finset.sum_congr rfl fun p _ => congrArg w (funext fun a => Fin.ext ?_)
  match a with
  | ⟨0, _⟩ => rfl
  | ⟨1, _⟩ => rfl
  | ⟨2, _⟩ => rfl

/-! ## The nine tiles of a staged block at (p, y, x): the centre and the eight neighbours -/

section Tiles
variable (B : FVec Ideal S3x514x514 .f32) (p : Fin 3) (y x : Fin 512)
private theorem tile_1_1 :
    tile (F := Ideal) B ![0, 1, 1] inb_S3x514x514_S3x512x512_0_1_1 (ix3 p y x) = B (bidx p y x 1 1) :=
  tile_apply B 1 1 _ p y x
private theorem tile_0_0 :
    tile (F := Ideal) B ![0, 0, 0] inb_S3x514x514_S3x512x512_0_0_0 (ix3 p y x) = B (bidx p y x 0 0) :=
  tile_apply B 0 0 _ p y x
private theorem tile_0_1 :
    tile (F := Ideal) B ![0, 0, 1] inb_S3x514x514_S3x512x512_0_0_1 (ix3 p y x) = B (bidx p y x 0 1) :=
  tile_apply B 0 1 _ p y x
private theorem tile_0_2 :
    tile (F := Ideal) B ![0, 0, 2] inb_S3x514x514_S3x512x512_0_0_2 (ix3 p y x) = B (bidx p y x 0 2) :=
  tile_apply B 0 2 _ p y x
private theorem tile_1_2 :
    tile (F := Ideal) B ![0, 1, 2] inb_S3x514x514_S3x512x512_0_1_2 (ix3 p y x) = B (bidx p y x 1 2) :=
  tile_apply B 1 2 _ p y x
private theorem tile_2_2 :
    tile (F := Ideal) B ![0, 2, 2] inb_S3x514x514_S3x512x512_0_2_2 (ix3 p y x) = B (bidx p y x 2 2) :=
  tile_apply B 2 2 _ p y x
private theorem tile_2_1 :
    tile (F := Ideal) B ![0, 2, 1] inb_S3x514x514_S3x512x512_0_2_1 (ix3 p y x) = B (bidx p y x 2 1) :=
  tile_apply B 2 1 _ p y x
private theorem tile_2_0 :
    tile (F := Ideal) B ![0, 2, 0] inb_S3x514x514_S3x512x512_0_2_0 (ix3 p y x) = B (bidx p y x 2 0) :=
  tile_apply B 2 0 _ p y x
private theorem tile_1_0 :
    tile (F := Ideal) B ![0, 1, 0] inb_S3x514x514_S3x512x512_0_1_0 (ix3 p y x) = B (bidx p y x 1 0) :=
  tile_apply B 1 0 _ p y x
end Tiles

/-! ## Each payload read at an index, in scalars -/

section Payloads
variable (i : S3x512x512.Idx)

/-- The centre tiles and the tiles that pass through a cast to their own shape are unchanged. -/
private theorem pay3_eq (v : FVec Ideal S3x512x512 .f32) : k0_pay3 (F := Ideal) v = v := shapeCast_self v _
private theorem pay4_eq (v : FVec Ideal S3x512x512 .f32) : k0_pay4 (F := Ideal) v = v := shapeCast_self v _
private theorem pay7_eq (v : FVec Ideal S3x512x512 .f32) : k0_pay7 (F := Ideal) v = v := shapeCast_self v _
private theorem pay14_eq (v : FVec Ideal S3x512x512 .f32) : k0_pay14 (F := Ideal) v = v := shapeCast_self v _

/-- The first weighted bit added to zero. -/
private theorem pay5_apply (v3 v9 : FVec Ideal S3x512x512 .f32) :
    k0_pay5 (F := Ideal) v3 v9 i = zW + Ideal.ofBits .f32 0x3F800000#32 * bit (v9 i) (v3 i) := by
  unfold k0_pay5
  simp only [shapeCast_self, pay3_eq]
  exact congrArg (fun t => zW + Ideal.ofBits .f32 0x3F800000#32 * t) (sbit_apply v9 v3 _ i)

private theorem pay6_apply (v5 v11 : FVec Ideal S3x512x512 .f32) :
    k0_pay6 (F := Ideal) v5 v11 i = zW + Ideal.ofBits .f32 0x3F800000#32 * bit (v11 i) (v5 i) := by
  unfold k0_pay6
  simp only [shapeCast_self, pay4_eq]
  exact congrArg (fun t => zW + Ideal.ofBits .f32 0x3F800000#32 * t) (sbit_apply v11 v5 _ i)

/-- A bare bit. -/
private theorem pay8_apply (v3 v25 : FVec Ideal S3x512x512 .f32) : k0_pay8 (F := Ideal) v3 v25 i = bit (v25 i) (v3 i) := by
  unfold k0_pay8
  simp only [shapeCast_self, pay3_eq]
  exact sbit_apply v25 v3 _ i

private theorem pay15_apply (v4 v105 : FVec Ideal S3x512x512 .f32) : k0_pay15 (F := Ideal) v4 v105 i = bit (v105 i) (v4 i) := by
  unfold k0_pay15
  simp only [shapeCast_self]
  exact sbit_apply v105 v4 _ i

/-- The two splat weights. -/
private theorem pay9_apply : k0_pay9 (F := Ideal) i = Ideal.ofBits .f32 0x40000000#32 := rfl
private theorem pay16_apply : k0_pay16 (F := Ideal) i = Ideal.ofBits .f32 0x42800000#32 := rfl

/-- Bits two to four of the first code. -/
private theorem pay10_apply (v4 v18 v31 v32 v41 v57 : FVec Ideal S3x512x512 .f32) :
    k0_pay10 (F := Ideal) v4 v18 v31 v32 v41 v57 i
      = v18 i + v32 i * v31 i + Ideal.ofBits .f32 0x40800000#32 * bit (v41 i) (v4 i)
        + Ideal.ofBits .f32 0x41000000#32 * bit (v57 i) (v4 i) := by
  unfold k0_pay10
  simp only [shapeCast_self]
  show v18 i + v32 i * v31 i + Ideal.ofBits .f32 0x40800000#32 * _ + Ideal.ofBits .f32 0x41000000#32 * _ = _
  rw [sbit_apply v41 v4 _ i, sbit_apply v57 v4 _ i]

/-- Bits two to four of the second code. -/
private theorem pay11_apply (v6 v24 v28 v43 v59 : FVec Ideal S3x512x512 .f32) :
    k0_pay11 (F := Ideal) v6 v24 v28 v43 v59 i
      = v24 i + Ideal.ofBits .f32 0x40000000#32 * bit (v28 i) (v6 i)
        + Ideal.ofBits .f32 0x40800000#32 * bit (v43 i) (v6 i)
        + Ideal.ofBits .f32 0x41000000#32 * bit (v59 i) (v6 i) := by
  unfold k0_pay11
  simp only [shapeCast_self]
  show v24 i + Ideal.ofBits .f32 0x40000000#32 * _ + Ideal.ofBits .f32 0x40800000#32 * _
    + Ideal.ofBits .f32 0x41000000#32 * _ = _
  rw [sbit_apply v28 v6 _ i, sbit_apply v43 v6 _ i, sbit_apply v59 v6 _ i]

/-- Bits five and six of the first code. -/
private theorem pay12_apply (v4 v66 v73 v89 : FVec Ideal S3x512x512 .f32) :
    k0_pay12 (F := Ideal) v4 v66 v73 v89 i
      = v66 i + Ideal.ofBits .f32 0x41800000#32 * bit (v73 i) (v4 i)
        + Ideal.ofBits .f32 0x42000000#32 * bit (v89 i) (v4 i) := by
  unfold k0_pay12
  simp only [shapeCast_self]
  show v66 i + Ideal.ofBits .f32 0x41800000#32 * _ + Ideal.ofBits .f32 0x42000000#32 * _ = _
  rw [sbit_apply v73 v4 _ i, sbit_apply v89 v4 _ i]

/-- Bits five and six of the second code. -/
private theorem pay13_apply (v6 v72 v75 v91 : FVec Ideal S3x512x512 .f32) :
    k0_pay13 (F := Ideal) v6 v72 v75 v91 i
      = v72 i + Ideal.ofBits .f32 0x41800000#32 * bit (v75 i) (v6 i)
        + Ideal.ofBits .f32 0x42000000#32 * bit (v91 i) (v6 i) := by
  unfold k0_pay13
  simp only [shapeCast_self]
  show v72 i + Ideal.ofBits .f32 0x41800000#32 * _ + Ideal.ofBits .f32 0x42000000#32 * _ = _
  rw [sbit_apply v75 v6 _ i, sbit_apply v91 v6 _ i]

end Payloads

/-! ## The three reductions, the last payload, and the point's body -/

/-- The three keepdims reductions of a 3x512x512 vector, read at the one index of [1,1,1], are the sum over the planes,
    the rows and the lanes. -/
private theorem sum3_apply (w : FVec Ideal S3x512x512 .f32)
    (h2 : S3x512x512.Reduces [2] S3x512) (h1 : S3x512x1.Reduces [1] S3x1) (h0 : S3x1x1.Reduces [0] S1x1)
    (c2 : S3x512.ShapeCasts S3x512x1) (c1 : S3x1.ShapeCasts S3x1x1) (c0 : S1x1.ShapeCasts S1x1x1)
    (hφ : FKind.Formats .f32) (hacc : (0x00000000#32 : BitVec 32) = FKind.add.neutral .f32 hφ) (j : S1x1x1.Idx) :
    shapeCast S1x1x1
        (multiReduction (F := Ideal) .add [0] S1x1
          (shapeCast S3x1x1
            (multiReduction (F := Ideal) .add [1] S3x1
              (shapeCast S3x512x1 (multiReduction (F := Ideal) .add [2] S3x512 w 0x00000000#32 h2 hφ hacc) c2)
              0x00000000#32 h1 hφ hacc) c1)
          0x00000000#32 h0 hφ hacc) c0 j
      = ∑ p : Fin 3, ∑ y : Fin 512, ∑ x : Fin 512, w (ix3 p y x) := by
  obtain ⟨a, b, c, rfl⟩ : ∃ (a b c : Fin 1), j = ix3 a b c := ⟨j 0, j 1, j 2, eq_ix3 j⟩
  refine (shapeCast_ab_ab1_apply _ c0 a b c).trans ?_
  refine (red_planes _ h0 hφ hacc a b).trans ?_
  refine Finset.sum_congr rfl fun p _ => ?_
  refine (shapeCast_ab_ab1_apply _ c1 p a b).trans ?_
  refine (red_rows _ h1 hφ hacc p a).trans ?_
  refine Finset.sum_congr rfl fun y _ => ?_
  refine (shapeCast_ab_ab1_apply _ c2 p y a).trans ?_
  exact red_lanes w h2 hφ hacc p y

/-- The last payload at its one index: the carried value plus the sum, over planes, rows and lanes, of the absolute
    difference of the two finished codes times c. -/
private theorem pay17_apply (v4 v6 v98 v104 v108 v111 v112 v121 v123 : FVec Ideal S3x512x512 .f32)
    (v147 : FVec Ideal S1x1x1 .f32) (j : S1x1x1.Idx) :
    k0_pay17 (F := Ideal) v4 v6 v98 v104 v108 v111 v112 v121 v123 v147 j
      = v147 j + ∑ p : Fin 3, ∑ y : Fin 512, ∑ x : Fin 512,
          absE ((v98 (ix3 p y x) + v112 (ix3 p y x) * v111 (ix3 p y x)
                  + Ideal.ofBits .f32 0x43000000#32 * bit (v121 (ix3 p y x)) (v4 (ix3 p y x)))
                - (v104 (ix3 p y x) + Ideal.ofBits .f32 0x42800000#32 * bit (v108 (ix3 p y x)) (v6 (ix3 p y x))
                  + Ideal.ofBits .f32 0x43000000#32 * bit (v123 (ix3 p y x)) (v6 (ix3 p y x)))) * cW := by
  unfold k0_pay17
  simp only [shapeCast_self]
  refine congrArg (fun t => v147 j + t) ?_
  refine (sum3_apply _ _ _ _ _ _ _ _ _ j).trans ?_
  refine Finset.sum_congr rfl fun p _ => Finset.sum_congr rfl fun y _ => Finset.sum_congr rfl fun x _ => ?_
  show absE ((v98 (ix3 p y x) + v112 (ix3 p y x) * v111 (ix3 p y x) + Ideal.ofBits .f32 0x43000000#32 * _)
      - (v104 (ix3 p y x) + Ideal.ofBits .f32 0x42800000#32 * _ + Ideal.ofBits .f32 0x43000000#32 * _)) * cW = _
  rw [sbit_apply v121 v4 _ (ix3 p y x), sbit_apply v108 v6 _ (ix3 p y x), sbit_apply v123 v6 _ (ix3 p y x)]

theorem stepV_apply (B0 B1 : FVec Ideal S3x514x514 .f32) (acc : FVec Ideal S1x1x1 .f32) (j : S1x1x1.Idx) :
    stepV (F := Ideal) B0 B1 acc j = acc j + Cert.Lbp.blockSum B0 B1 := by
  unfold stepV
  refine (pay17_apply _ _ _ _ _ _ _ _ _ acc j).trans ?_
  refine congrArg (fun t => acc j + t) ?_
  unfold Cert.Lbp.blockSum
  refine Finset.sum_congr rfl fun p _ => Finset.sum_congr rfl fun y _ => Finset.sum_congr rfl fun x _ => ?_
  simp only [pay3_eq, pay4_eq, pay7_eq, pay14_eq, pay5_apply, pay6_apply, pay8_apply, pay9_apply, pay10_apply,
    pay11_apply, pay12_apply, pay13_apply, pay15_apply, pay16_apply]
  rw [tile_1_1 B0 p y x, tile_0_0 B0 p y x, tile_0_1 B0 p y x, tile_0_2 B0 p y x, tile_1_2 B0 p y x, tile_2_2 B0 p y x, tile_2_1 B0 p y x, tile_2_0 B0 p y x, tile_1_0 B0 p y x,
    tile_1_1 B1 p y x, tile_0_0 B1 p y x, tile_0_1 B1 p y x, tile_0_2 B1 p y x, tile_1_2 B1 p y x, tile_2_2 B1 p y x, tile_2_1 B1 p y x, tile_2_0 B1 p y x, tile_1_0 B1 p y x]
  rfl

end Cert.KernelIdeal.KerValue

end
-- ==== Proof.RefIdx.lean ====
/-
  The reference's term one element at a time: the padding's interior is the image itself, and the loss is the
  square root of zero plus the sum over all pixels of |code(pad x, x) * c - code(pad y, y) * c|.
-/
import proofs.«130637_j39152921870850_1_alg».proof.Proof.IdxSpec
import Idealize.ShloMosaic.Lib.Pipeline.Value
import Idealize.ShloMosaic.Lib.ValueLayout

noncomputable section

namespace Cert.Lbp

open Idealize.ShloMosaic Idealize.ShloMosaic.ValueIdx

/-- Inside the border the padded batch is the batch: entry (1 + y, 1 + x) of a padded plane is entry (y, x). -/
theorem padV_interior {F : FTy → Type} [FloatOps F] (X : FVec F SImg .f32) (b : Fin 16) (c : Fin 3) (y x : Fin 512) :
    padV X (pidx b c y x 1 1) = X (ix4 b c y x) := by
  -- the last column strip is appended on the right: column 1 + x is below 513, so the entry is the left piece's
  refine (concatenate_pair_apply_left (t := SPad) (s₁ := SCol513) (s₂ := SCol1) (3 : Fin 4) _ _ cat_cols_right _ rfl
    (ix4 b c (⟨y.val + 1, by omega⟩ : Fin 514) (⟨x.val + 1, by omega⟩ : Fin 513)) (fun a => by
      match a with
      | ⟨0, _⟩ => rfl
      | ⟨1, _⟩ => rfl
      | ⟨2, _⟩ => rfl
      | ⟨3, _⟩ => rfl)).trans ?_
  -- the first column strip is put on the left: column 1 + x is column x of the 514 rows
  refine (concatenate_pair_apply_right (t := SCol513) (s₁ := SCol1) (s₂ := SRow514) (3 : Fin 4) _ _ cat_cols_left _ rfl rfl
    (ix4 b c (⟨y.val + 1, by omega⟩ : Fin 514) x) (fun a ha => by
      match a with
      | ⟨0, _⟩ => rfl
      | ⟨1, _⟩ => rfl
      | ⟨2, _⟩ => rfl
      | ⟨3, _⟩ => exact absurd rfl ha) rfl).trans ?_
  -- the last row strip is appended below: row 1 + y is below 513, so the entry is the upper piece's
  refine (concatenate_pair_apply_left (t := SRow514) (s₁ := SRow513) (s₂ := SRow1) (2 : Fin 4) _ _ cat_rows_bottom _ rfl
    (ix4 b c (⟨y.val + 1, by omega⟩ : Fin 513) x) (fun a => by
      match a with
      | ⟨0, _⟩ => rfl
      | ⟨1, _⟩ => rfl
      | ⟨2, _⟩ => rfl
      | ⟨3, _⟩ => rfl)).trans ?_
  -- the first row strip is put on top: row 1 + y is row y of the image
  exact concatenate_pair_apply_right (t := SRow513) (s₁ := SRow1) (s₂ := SImg) (2 : Fin 4) _ _ cat_rows_top _ rfl rfl
    (ix4 b c y x) (fun a ha => by
      match a with
      | ⟨0, _⟩ => rfl
      | ⟨1, _⟩ => rfl
      | ⟨2, _⟩ => exact absurd rfl ha
      | ⟨3, _⟩ => rfl) rfl

/-- A neighbour's slice of the padded batch at pixel (b, c, y, x) is the padded batch at (y + dy, x + dx). -/
private theorem slice_apply (P : SPad.Idx → EReal) (dy dx : Fin 3) (h : SPad.Slices ![0, 0, dy.val, dx.val] SImg)
    (b : Fin 16) (c : Fin 3) (y x : Fin 512) :
    extractStridedSlice SImg ![0, 0, dy.val, dx.val] P h (ix4 b c y x) = P (pidx b c y x dy dx) :=
  extractStridedSlice_apply _ P h _ _ (fun a => by
    match a with
    | ⟨0, _⟩ => exact (Nat.zero_add _).symm
    | ⟨1, _⟩ => exact (Nat.zero_add _).symm
    | ⟨2, _⟩ => exact Nat.add_comm _ _
    | ⟨3, _⟩ => exact Nat.add_comm _ _)

/-- One neighbour's weighted bit at a pixel: the weight times the bit of (neighbour >= pixel). -/
private theorem termV_apply (P : FVec Ideal SPad .f32) (X : FVec Ideal SImg .f32) (dy dx : Fin 3)
    (h : SPad.Slices ![0, 0, dy.val, dx.val] SImg) (w : BitVec 32) (b : Fin 16) (c : Fin 3) (y x : Fin 512) :
    termV (F := Ideal) P X ![0, 0, dy.val, dx.val] h w (ix4 b c y x)
      = Ideal.ofBits .f32 w * bit (P (pidx b c y x dy dx)) (X (ix4 b c y x)) := by
  rw [← slice_apply P dy dx h b c y x]
  rfl

/-- The host's pattern code at a pixel is the scalar code of that pixel's centre and its eight padded neighbours. -/
theorem codeV_apply (P : FVec Ideal SPad .f32) (X : FVec Ideal SImg .f32) (b : Fin 16) (c : Fin 3) (y x : Fin 512) :
    codeV (F := Ideal) P X (ix4 b c y x) = codeAt P (X (ix4 b c y x)) b c y x := by
  unfold codeAt code8
  rw [← termV_apply P X 0 0 (by decide) 0x3F800000#32 b c y x, ← termV_apply P X 0 1 (by decide) 0x40000000#32 b c y x,
    ← termV_apply P X 0 2 (by decide) 0x40800000#32 b c y x, ← termV_apply P X 1 2 (by decide) 0x41000000#32 b c y x,
    ← termV_apply P X 2 2 (by decide) 0x41800000#32 b c y x, ← termV_apply P X 2 1 (by decide) 0x42000000#32 b c y x,
    ← termV_apply P X 2 0 (by decide) 0x42800000#32 b c y x, ← termV_apply P X 1 0 (by decide) 0x43000000#32 b c y x]
  rfl

/-- The scaled code at a pixel. -/
private theorem lbpV_apply (X : FVec Ideal SImg .f32) (i : SImg.Idx) :
    lbpV (F := Ideal) X i = codeAt (padV (F := Ideal) X) (X i) (i 0) (i 1) (i 2) (i 3) * cW := by
  obtain ⟨b, c, y, x, rfl⟩ : ∃ b c y x, i = ix4 b c y x := ⟨i 0, i 1, i 2, i 3, eq_ix4 i⟩
  rw [← codeV_apply (padV (F := Ideal) X) X b c y x]
  rfl

/-- The summand at a pixel: the absolute value, max a (-a), of the difference of the two scaled codes. -/
private theorem absTerm_apply (X Y : FVec Ideal SImg .f32) (i : SImg.Idx) :
    Host.absf (F := Ideal) (subf (lbpV X) (lbpV Y)) i = pixelTerm X Y i := by
  unfold pixelTerm
  rw [← lbpV_apply X i, ← lbpV_apply Y i]
  rfl

/-- The host's square root at the one index of a rank-0 value is the extended reals' square root of its entry. -/
private theorem sqrt_apply (v : FVec Ideal S0 .f32) (j : S0.Idx) : Host.sqrt (F := Ideal) v j = Ideal.sqrt (v j) := rfl

/-- The host's sum over all four axes into the rank-0 shape is the initial value plus the total over all pixels: the
    result has no axis, so every pixel drops to its one index. -/
private theorem reduceAdd_all_apply (v : FVec Ideal SImg .f32) (w : FVec Ideal S0 .f32)
    (h : SImg.ReducesTo [0, 1, 2, 3] S0) (hu : 0 < S0.numel) (j : S0.Idx) :
    Host.reduceAdd (F := Ideal) v w h hu j = w (Shape.Idx.first hu) + ∑ i : SImg.Idx, v i :=
  Ideal.hostReduceAdd_total h (fun b => b.elim0) v _ j

/-- The host's loss at its one index. -/
theorem lossV_apply (X Y : FVec Ideal SImg .f32) (j : S0.Idx) :
    lossV (F := Ideal) X Y j = Ideal.sqrt (zW + ∑ i : SImg.Idx, pixelTerm X Y i) := by
  -- the square root of (the zero word plus the total of the summands), each summand read at its pixel
  unfold lossV
  rw [sqrt_apply]
  rw [reduceAdd_all_apply]
  rw [constant_apply]
  rw [Finset.sum_congr rfl fun i _ => absTerm_apply X Y i]

end Cert.Lbp

end
-- ==== Proof.Consts.lean ====
/-
  The float words the two programs spell, as the reals they denote: the weights 1, 2, 4, ..., 128 of the eight
  neighbours, the zero, and the scale c = f32(1/255) = 8421505 / 2^31, a positive real.  With them a pattern code
  is a real number, and scaling by c commutes with the absolute value of a difference of two codes.
-/
import proofs.«130637_j39152921870850_1_alg».proof.Proof.IdxSpec

noncomputable section

namespace Cert.Lbp

open Idealize.ShloMosaic

theorem zW_eq : zW = ((0 : ℝ) : EReal) := by
  simp [zW, Ideal.ofBits, Ideal.ieee]
theorem w1_eq : Ideal.ofBits .f32 0x3F800000#32 = ((1 : ℝ) : EReal) := by
  simp [Ideal.ofBits, Ideal.ieee, -EReal.coe_mul]; norm_num
theorem w2_eq : Ideal.ofBits .f32 0x40000000#32 = ((2 : ℝ) : EReal) := by
  simp [Ideal.ofBits, Ideal.ieee, -EReal.coe_mul]; norm_num
theorem w4_eq : Ideal.ofBits .f32 0x40800000#32 = ((4 : ℝ) : EReal) := by
  simp [Ideal.ofBits, Ideal.ieee, -EReal.coe_mul]; norm_num
theorem w8_eq : Ideal.ofBits .f32 0x41000000#32 = ((8 : ℝ) : EReal) := by
  simp [Ideal.ofBits, Ideal.ieee, -EReal.coe_mul]; norm_num
theorem w16_eq : Ideal.ofBits .f32 0x41800000#32 = ((16 : ℝ) : EReal) := by
  simp [Ideal.ofBits, Ideal.ieee, -EReal.coe_mul]; norm_num
theorem w32_eq : Ideal.ofBits .f32 0x42000000#32 = ((32 : ℝ) : EReal) := by
  simp [Ideal.ofBits, Ideal.ieee, -EReal.coe_mul]; norm_num
theorem w64_eq : Ideal.ofBits .f32 0x42800000#32 = ((64 : ℝ) : EReal) := by
  simp [Ideal.ofBits, Ideal.ieee, -EReal.coe_mul]; norm_num
theorem w128_eq : Ideal.ofBits .f32 0x43000000#32 = ((128 : ℝ) : EReal) := by
  simp [Ideal.ofBits, Ideal.ieee, -EReal.coe_mul]; norm_num

/-- The scale is the positive real 8421505 / 2^31. -/
def cR : ℝ := 8421505 * (2 : ℝ) ^ (-31 : ℤ)
theorem cW_eq : cW = ((cR : ℝ) : EReal) := by
  simp [cW, cR, Ideal.ofBits, Ideal.ieee, -EReal.coe_mul]
theorem cR_nonneg : 0 ≤ cR := by unfold cR; positivity

/-- A bit is the real 0 or 1. -/
theorem bit_real (a b : EReal) : ∃ r : ℝ, bit a b = (r : EReal) := ⟨_, rfl⟩

/-- A pattern code is a real number, whatever the nine values it compares. -/
theorem code8_real (ctr n0 n1 n2 n3 n4 n5 n6 n7 : EReal) : ∃ r : ℝ, code8 ctr n0 n1 n2 n3 n4 n5 n6 n7 = (r : EReal) := by
  unfold code8 bit
  rw [zW_eq, w1_eq, w2_eq, w4_eq, w8_eq, w16_eq, w32_eq, w64_eq, w128_eq]
  simp only [← EReal.coe_mul, ← EReal.coe_add]
  exact ⟨_, rfl⟩

/-- For real a, b and c >= 0: |a - b| * c = |a * c - b * c|. -/
theorem absE_scale {a b : EReal} (ha : ∃ r : ℝ, a = (r : EReal)) (hb : ∃ r : ℝ, b = (r : EReal)) :
    absE (a - b) * cW = absE (a * cW - b * cW) := by
  obtain ⟨r, rfl⟩ := ha
  obtain ⟨s, rfl⟩ := hb
  rw [cW_eq]
  unfold absE
  have hmax : ∀ u v : ℝ, max (u : EReal) (v : EReal) = ((max u v : ℝ) : EReal) :=
    fun u v => (EReal.coe_strictMono.monotone.map_max).symm
  simp only [← EReal.coe_mul, ← EReal.coe_sub, ← EReal.coe_neg, hmax]
  congr 1
  rw [max_mul_of_nonneg _ _ cR_nonneg]
  congr 1 <;> ring

end Cert.Lbp

end
-- ==== Proof.SumIdx.lean ====
/-
  A sum over the indices of a rank-4 array is the fourfold sum over its coordinates.
-/
import Idealize.ShloMosaic.Lib.ValueIdx
import Mathlib.Algebra.BigOperators.Fin
import Mathlib.Algebra.BigOperators.Group.Finset.Sigma

noncomputable section

open scoped BigOperators

namespace Cert.Lbp

open Idealize.ShloMosaic Idealize.ShloMosaic.ValueIdx

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- So a sum over it is the fourfold sum over the coordinates. -/
theorem sum_idx4 {M : Type} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← idxEquiv4.symm.sum_comp]
  simp only [Fintype.sum_prod_type]
  rfl

end Cert.Lbp

end
-- ==== Proof.Bridge.lean ====
/-
  The two sides meet.  Over the extended reals the carried sum after point n is zero plus the block totals of points
  0 .. n; a block total is the sum, over the three planes of the block and their 512 x 512 pixels, of the
  reference's pixel terms (a staged block is three planes of the padded argument, the centre of a pixel's
  neighbourhood is the pixel itself, and the scale c commutes with the absolute difference of two codes, which are
  reals); sixteen blocks of three planes are all 48 planes.  So the kernel's result, the square root of the carried
  sum after the last point, is the reference's loss.
-/
import proofs.«130637_j39152921870850_1_alg».proof.Proof.KerEntry
import proofs.«130637_j39152921870850_1_alg».proof.Proof.KerStep
import proofs.«130637_j39152921870850_1_alg».proof.Proof.RefIdx
import proofs.«130637_j39152921870850_1_alg».proof.Proof.Consts
import proofs.«130637_j39152921870850_1_alg».proof.Proof.SumIdx

noncomputable section

open scoped BigOperators

namespace Cert.KernelIdeal.KerValue

open Idealize.ShloMosaic Idealize.ShloMosaic.TcCoe Idealize.SL.Sem Idealize.ShloMosaic.ValueIdx
open Cert.KernelIdeal Cert.KernelIdeal.Gen Cert.Lbp

variable (m : (ℓ : Loc nD τ sig) → Buf (Elt Ideal) ℓ)

/-- The two arguments' contents on core c. -/
abbrev argX (c : Dev nD) : FVec Ideal SImg .f32 := m ((c : Thread nD τ).loc main_arg0)
abbrev argY (c : Dev nD) : FVec Ideal SImg .f32 := m ((c : Thread nD τ).loc main_arg1)

/-- The block total of point s (zero past the grid). -/
def bs (c : Dev nD) (s : ℕ) : EReal :=
  if h : s < cfg0.N then blockSum (blk0 m c ⟨s, h⟩) (blk1 m c ⟨s, h⟩) else 0

/-- The zero the first point stores. -/
theorem pay2_apply (j : S1x1x1.Idx) : k0_pay2 (F := Ideal) j = zW := by
  unfold k0_pay2
  rw [shapeCast_self]
  rfl

theorem accV_zero (c : Dev nD) (h : 0 < cfg0.N) :
    accV m c 0 h = stepV (blk0 m c ⟨0, h⟩) (blk1 m c ⟨0, h⟩) (k0_pay2 (F := Ideal)) := rfl
theorem accV_succ (c : Dev nD) (n : ℕ) (h : n + 1 < cfg0.N) :
    accV m c (n + 1) h
      = stepV (blk0 m c ⟨n + 1, h⟩) (blk1 m c ⟨n + 1, h⟩) (accV m c n (Nat.lt_of_succ_lt h)) := rfl

/-- The carried sum after point n is zero plus the block totals of points 0 .. n. -/
theorem accV_apply (c : Dev nD) (n : ℕ) : ∀ (h : n < cfg0.N) (j : S1x1x1.Idx),
    accV m c n h j = zW + ∑ s ∈ Finset.range (n + 1), bs m c s := by
  induction n with
  | zero =>
    intro h j
    rw [accV_zero]
    refine (stepV_apply (blk0 m c ⟨0, h⟩) (blk1 m c ⟨0, h⟩) (k0_pay2 (F := Ideal)) j).trans ?_
    rw [pay2_apply, Finset.sum_range_one, bs, dif_pos h]
  | succ n ih =>
    intro h j
    rw [accV_succ]
    refine (stepV_apply (blk0 m c ⟨n + 1, h⟩) (blk1 m c ⟨n + 1, h⟩) (accV m c n (Nat.lt_of_succ_lt h)) j).trans ?_
    have hb : bs m c (n + 1) = blockSum (blk0 m c ⟨n + 1, h⟩) (blk1 m c ⟨n + 1, h⟩) := by rw [bs, dif_pos h]
    rw [ih (Nat.lt_of_succ_lt h) j, Finset.sum_range_succ _ (n + 1), add_assoc, hb]

/-- A pixel's code read out of a staged block is its code read out of the padded argument. -/
theorem codeB_blk0 (c : Dev nD) (t : Fin cfg0.N) (p : Fin 3) (y x : Fin 512) :
    codeB (blk0 m c t) p y x = codeAt (padV (argX m c)) (argX m c (ix4 (bOf t) p y x)) (bOf t) p y x := by
  unfold codeB codeAt
  simp only [bidx, blk0_apply]
  rw [← padV_interior (argX m c) (bOf t) p y x]
theorem codeB_blk1 (c : Dev nD) (t : Fin cfg0.N) (p : Fin 3) (y x : Fin 512) :
    codeB (blk1 m c t) p y x = codeAt (padV (argY m c)) (argY m c (ix4 (bOf t) p y x)) (bOf t) p y x := by
  unfold codeB codeAt
  simp only [bidx, blk1_apply]
  rw [← padV_interior (argY m c) (bOf t) p y x]

/-- A block total is the pixel terms of its three planes. -/
theorem blockSum_eq (c : Dev nD) (t : Fin cfg0.N) :
    blockSum (blk0 m c t) (blk1 m c t)
      = ∑ p : Fin 3, ∑ y : Fin 512, ∑ x : Fin 512, pixelTerm (argX m c) (argY m c) (ix4 (bOf t) p y x) := by
  unfold blockSum
  refine Finset.sum_congr rfl fun p _ => Finset.sum_congr rfl fun y _ => Finset.sum_congr rfl fun x _ => ?_
  rw [codeB_blk0, codeB_blk1]
  unfold pixelTerm codeAt
  exact absE_scale (code8_real ..) (code8_real ..)

/-- The sixteen block totals are the sum of all pixel terms. -/
theorem total (c : Dev nD) :
    ∑ s ∈ Finset.range 16, bs m c s = ∑ i : SImg.Idx, pixelTerm (argX m c) (argY m c) i := by
  rw [sum_idx4, ← Fin.sum_univ_eq_sum_range (fun s => bs m c s) 16]
  refine Finset.sum_congr rfl fun b _ => ?_
  have hb : b.val < cfg0.N := lt_of_lt_of_eq b.isLt (show 16 = cfg0.N from N_0.symm)
  rw [bs, dif_pos hb, blockSum_eq]

/-- The scalar result read at its one index: the square root of the carried value's one entry. -/
theorem result_read (A : FVec Ideal S1x1x1 .f32) (j : S_.Idx) :
    shapeCast S_ (k0_pay1 (F := Ideal) A) shapeCasts_S1x1x1_S_ j = Ideal.sqrt (A (ix3 0 0 0)) := by
  refine (shapeCast_apply (k0_pay1 (F := Ideal) A) shapeCasts_S1x1x1_S_ j (ix3 0 0 0) ?_).trans rfl
  have h1 : (S1x1x1.rowMajor (ix3 0 0 0)).val < 1 := lt_of_lt_of_eq (Fin.isLt _) (by decide)
  have h2 : (S_.rowMajor j).val < 1 := lt_of_lt_of_eq (Fin.isLt _) (by decide)
  omega

/-- The kernel's result is the reference's loss. -/
theorem result_eq (c : Dev nD) : resultV m c = lossV (argX m c) (argY m c) := by
  funext j
  rw [lossV_apply, ← total m c]
  unfold resultV
  refine (result_read _ j).trans ?_
  rw [accV_apply]

end Cert.KernelIdeal.KerValue

end
-- ==== Proof.lean ====
/-
  The certificate.  Both programs compute, from two image batches, the square root of the total over all pixels of
  the absolute difference of their local binary pattern codes scaled by c = f32(1/255).

  The kernel's program pads each batch by one reflected pixel, folds batch and channel into 48 planes and visits them
  three at a time over sixteen grid points, carrying the running total in a scratch cell and writing its square root
  at the last point; the reference pads the same way and takes one sum over the whole batch.  Over the extended
  reals the two results are one number: a pixel's neighbourhood in a staged block is its neighbourhood in the padded
  batch, a code is a real number so that |a - b| * c = |a * c - b * c|, and a sum may be taken block by block.
  No operation was rewritten by the idealization, and the inputs' finiteness is never used.

  Frames: the kernel's two programs by the generated frame; the reference by its run, the straight line of its
  host operations.
-/
import proofs.«130637_j39152921870850_1_alg».proof.Defs
import proofs.«130637_j39152921870850_1_alg».proof.Proof.Gen.Kernel
import proofs.«130637_j39152921870850_1_alg».proof.Proof.Gen.Kernel.Frame
import proofs.«130637_j39152921870850_1_alg».proof.Proof.Gen.KernelIdeal
import proofs.«130637_j39152921870850_1_alg».proof.Proof.Gen.KernelIdeal.Frame
import proofs.«130637_j39152921870850_1_alg».proof.Proof.Gen.ReferenceIdeal
import proofs.«130637_j39152921870850_1_alg».proof.Proof.Gen.Pre_finite_inputs
import proofs.«130637_j39152921870850_1_alg».proof.Proof.RefRun
import proofs.«130637_j39152921870850_1_alg».proof.Proof.RefValue
import proofs.«130637_j39152921870850_1_alg».proof.Proof.KerRun
import proofs.«130637_j39152921870850_1_alg».proof.Proof.Bridge
import Idealize.ShloMosaic.Adequacy
import Idealize.ShloMosaic.Init

noncomputable section

namespace Cert.Proof

open Idealize.ShloMosaic Idealize.ShloMosaic.TcCoe Idealize.SL.Sem

/-- The reference's run with its result named: the loss of the two arguments, which end unchanged. -/
theorem ref_run {F : FTy → Type} [FloatOps F]
    (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v107)
            = Cert.Lbp.lossV (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) :=
  (θ_run (Cert.ReferenceIdeal.defs (F := F)) _ _).mono
    (fun _ h c => ⟨(h c Cert.ReferenceIdeal.main_v107).trans (Cert.ReferenceIdeal.RefValue.after_loss _),
      (h c Cert.ReferenceIdeal.main_arg0).trans (Cert.ReferenceIdeal.RefValue.after_arg0 _),
      (h c Cert.ReferenceIdeal.main_arg1).trans (Cert.ReferenceIdeal.RefValue.after_arg1 _)⟩)
    (Cert.ReferenceIdeal.RefRun.run_after m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (ref_run (F := Ideal) m ρ)

theorem preserves : Cert.preserves_Kernel_KernelIdeal := trivial

/-- At the ideal instance the kernel's program ends at the square root of its carried total and the reference at
    its loss of arguments that agree: one extended real. -/
theorem algebraic : Cert.algebraic_KernelIdeal_ReferenceIdeal := by
  intro m ρ m' ρ' _ hagree
  refine ⟨fun c => Cert.KernelIdeal.KerValue.resultV m c, Cert.KernelIdeal.KerValue.run (F := Ideal) m ρ, ?_⟩
  refine (θ_run Cert.ReferenceIdeal.defs _ _).mono (fun _ h c => ⟨(h c).1.trans ?_, (h c).2⟩) (ref_run (F := Ideal) m' ρ')
  rw [(hagree c).1, (hagree c).2]
  exact (Cert.KernelIdeal.KerValue.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
